-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  main_v38

def fn_part1 {F : FTy → Type} [FloatOps F] (main_arg4 : FVec F S128x64 .f32) (main_arg5 : FVec F S64 .f32) (main_arg6 : FVec F S128x16 .f32) (main_arg7 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x16 .f32 := Host.absf main_arg6
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x128 .f32) (main_arg3 : FVec F S128 .f32) (main_arg4 : FVec F S128x64 .f32) (main_arg5 : FVec F S64 .f32) (main_arg6 : FVec F S128x16 .f32) (main_arg7 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x16 : Shape := ⟨2, ![128, 16]⟩
abbrev S16 : Shape := ⟨1, ![16]⟩
abbrev S1x128 : Shape := ⟨2, ![1, 128]⟩
abbrev S1x64 : Shape := ⟨2, ![1, 64]⟩
abbrev S1x16 : Shape := ⟨2, ![1, 16]⟩
abbrev S10000x64 : Shape := ⟨2, ![10000, 64]⟩
abbrev S10000x16 : Shape := ⟨2, ![10000, 16]⟩
abbrev S400x10000 : Shape := ⟨2, ![400, 10000]⟩
abbrev S400x64 : Shape := ⟨2, ![400, 64]⟩
abbrev S400x16 : Shape := ⟨2, ![400, 16]⟩
abbrev S400x128 : Shape := ⟨2, ![400, 128]⟩
abbrev S400 : Shape := ⟨1, ![400]⟩
abbrev S400x1 : Shape := ⟨2, ![400, 1]⟩

abbrev nBuf : Space → Nat
  | .hbm => 13
  | .vmem => 15
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x16, .f32⟩
  | .hbm, ⟨7, _⟩ => ⟨S16, .f32⟩
  | .hbm, ⟨8, _⟩ => ⟨S1x128, .f32⟩
  | .hbm, ⟨9, _⟩ => ⟨S1x64, .f32⟩
  | .hbm, ⟨10, _⟩ => ⟨S1x16, .f32⟩
  | .hbm, ⟨11, _⟩ => ⟨S10000x64, .f32⟩
  | .hbm, ⟨12, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S128x64, .f32⟩
  | .local _ .vmem, ⟨6, _⟩ => ⟨S1x64, .f32⟩
  | .local _ .vmem, ⟨7, _⟩ => ⟨S128x16, .f32⟩
  | .local _ .vmem, ⟨8, _⟩ => ⟨S1x16, .f32⟩
  | .local _ .vmem, ⟨9, _⟩ => ⟨S400x64, .f32⟩
  | .local _ .vmem, ⟨10, _⟩ => ⟨S400x64, .f32⟩
  | .local _ .vmem, ⟨11, _⟩ => ⟨S400x16, .f32⟩
  | .local _ .vmem, ⟨12, _⟩ => ⟨S400x16, .f32⟩
  | .local _ .vmem, ⟨13, _⟩ => ⟨S10000x128, .bf16⟩
  | .local _ .vmem, ⟨14, _⟩ => ⟨S10000x64, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v30 : BitVec 32 := Scalar.muli arg1 c400_i32
  let v31 : Index := Scalar.indexCast v30
  let c0_21 : Index := 0#32
  ![v31.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.subi c24_i32 arg1
  let v2 : BitVec 32 := Scalar.select v0 arg1 v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c24_i32 : BitVec 32 := 24#32
  let v1 : BitVec 32 := Scalar.subi c24_i32 arg1
  let c24_i32_0 : BitVec 32 := 24#32
  let v2 : BitVec 32 := Scalar.select v0 v1 c24_i32_0
  let c0_i32 : BitVec 32 := 0#32
  let c0_i32_1 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c24_i32 : BitVec 32 := 24#32
  let v1 : BitVec 32 := Scalar.select v0 arg1 c24_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S400x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S400x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

class Facts₀ : Prop where
  shapeCasts_S128_S1x128 : S128.ShapeCasts S1x128
  shapeCasts_S64_S1x64 : S64.ShapeCasts S1x64
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S400x10000_S400x10000_0_0 : ∀ a, (![0, 0] : Fin 2 → Nat) a + S400x10000.size a ≤ S400x10000.size a
  h_S400x10000 : 0 < S400x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S400x16_S400x16_0_0 : ∀ a, (![0, 0] : Fin 2 → Nat) a + S400x16.size a ≤ S400x16.size a
  h_S400x16 : 0 < S400x16.numel
  inb_S128x64_S128x64_0_0 : ∀ a, (![0, 0] : Fin 2 → Nat) a + S128x64.size a ≤ S128x64.size a
  h_S128x64 : 0 < S128x64.numel
  h_S400x64 : 0 < S400x64.numel
  shapeCasts_S400x64_S400x64 : S400x64.ShapeCasts S400x64
  inb_S10000x64_S10000x64_0_0 : ∀ a, (![0, 0] : Fin 2 → Nat) a + S10000x64.size a ≤ S10000x64.size a
  h_S10000x64 : 0 < S10000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  reduces_S400x64_S400 : S400x64.Reduces [1] S400
  shapeCasts_S400_S400x1 : S400.ShapeCasts S400x1
  broadcasts_S400x1_S400x64 : S400x1.Broadcasts S400x64
  inb_S400x64_S400x64_0_0 : ∀ a, (![0, 0] : Fin 2 → Nat) a + S400x64.size a ≤ S400x64.size a
  dot_S10000x128_S128x128_S10000x128_1_0_0_1_n_n_wf : DotDims.WF S10000x128 S128x128 S10000x128 [1] [0] [0] [1] [] []
  dot_S400x10000_S10000x128_S400x128_1_0_0_1_n_n_wf : DotDims.WF S400x10000 S10000x128 S400x128 [1] [0] [0] [1] [] []
  dot_S400x128_S128x16_S400x16_1_0_0_1_n_n_wf : DotDims.WF S400x128 S128x16 S400x16 [1] [0] [0] [1] [] []
  dot_S400x128_S128x64_S400x64_1_0_0_1_n_n_wf : DotDims.WF S400x128 S128x64 S400x64 [1] [0] [0] [1] [] []
  dot_S400x10000_S10000x64_S400x64_1_0_0_1_n_n_wf : DotDims.WF S400x10000 S10000x64 S400x64 [1] [0] [0] [1] [] []
  hrank0 : 0 < grid0.rank
  k0_off1_inb : ∀ i : grid0.Coords, ∀ (k0_h2 : k0_cond2 i = 1#1), ∀ a, (k0_off1 i) a + S400x64.size a ≤ S10000x64.size a
  k0_off1_packedbf16 : ∀ i : grid0.Coords, ∀ (k0_h2 : k0_cond2 i = 1#1), (Rect.unit (s := S10000x64) (k0_off1 i) S400x64.size (k0_off1_inb i k0_h2)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x16.size a ≤ S128x16.size a
  hwx0_6 : ∀ i : grid0.Coords, EltTy.bits .f32 = 32 ∨ (Rect.block (s := S128x16) S128x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x64.size a ≤ S10000x64.size a
  hwx0_8 : ∀ i : grid0.Coords, EltTy.bits .f32 = 32 ∨ (Rect.block (s := S10000x64) S400x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x16.size a ≤ S10000x16.size a
  hwx0_9 : ∀ i : grid0.Coords, EltTy.bits .f32 = 32 ∨ (Rect.block (s := S10000x16) S400x16.size (cc0_transform_9 i) (hinb0_9 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x16_S400x16_1_0_0_1_n_n : DotDims S400x128 S128x16 S400x16 where
  lhsContracting := [1]
  rhsContracting := [0]
  lhsNonContracting := [0]
  rhsNonContracting := [1]
  lhsBatch := []
  rhsBatch := []
  wf := dot_S400x128_S128x16_S400x16_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_0) S400x64.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3_1) S400x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond3 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S128x16 : Shape := ⟨2, ![128, 16]⟩
abbrev S16 : Shape := ⟨1, ![16]⟩
abbrev S1x128 : Shape := ⟨2, ![1, 128]⟩
abbrev S_ : Shape := ⟨0, ![]⟩
abbrev S10000x64 : Shape := ⟨2, ![10000, 64]⟩
abbrev S1x64 : Shape := ⟨2, ![1, 64]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 40
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x16, .f32⟩
  | .hbm, ⟨7, _⟩ => ⟨S16, .f32⟩
  | .hbm, ⟨8, _⟩ => ⟨S10000x128, .f32⟩
  | .hbm, ⟨9, _⟩ => ⟨S10000x128, .f32⟩
  | .hbm, ⟨10, _⟩ => ⟨S1x128, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x64, .f32⟩
  | .hbm, ⟨17, _⟩ => ⟨S10000x64, .f32⟩
  | .hbm, ⟨18, _⟩ => ⟨S1x64, .f32⟩
  | .hbm, ⟨19, _⟩ => ⟨S10000x64, .f32⟩
  | .hbm, ⟨20, _⟩ => ⟨S10000x64, .f32⟩
  | .hbm, ⟨21, _⟩ => ⟨S10000x16, .f32⟩
  | .hbm, ⟨22, _⟩ => ⟨S1x16, .f32⟩
  | .hbm, ⟨23, _⟩ => ⟨S10000x16, .f32⟩
  | .hbm, ⟨24, _⟩ => ⟨S10000x16, .f32⟩
  | .hbm, ⟨25, _⟩ => ⟨S_, .f32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000x1, .f32⟩
  | .hbm, ⟨31, _⟩ => ⟨S10000x64, .f32⟩
  | .hbm, ⟨32, _⟩ => ⟨S10000x64, .f32⟩
  | .hbm, ⟨33, _⟩ => ⟨S10000x64, .f32⟩
  | .hbm, ⟨34, _⟩ => ⟨S_, .f32⟩
  | .hbm, ⟨35, _⟩ => ⟨S10000, .f32⟩
  | .hbm, ⟨36, _⟩ => ⟨S10000x1, .f32⟩
  | .hbm, ⟨37, _⟩ => ⟨S10000x1, .f32⟩
  | .hbm, ⟨38, _⟩ => ⟨S10000x64, .f32⟩
  | .hbm, ⟨39, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_call1_cst : Ref sig .tc := ⟨.hbm, 25, rfl⟩
abbrev main_call1_v0 : Ref sig .tc := ⟨.hbm, 26, rfl⟩
abbrev main_call1_cst_0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_cst_1 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_v15 : Ref sig .tc := ⟨.hbm, 39, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x128_S128x16_S10000x16_1_0_0_1_n_n_wf : DotDims.WF S10000x128 S128x16 S10000x16 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf

class Facts : Prop extends Facts₀ where

variable [Facts]
-- ==== Proof.K.Sched.lean ====
/-
  The schedule of the fused two-layer graph-convolution kernel, decided once over its grid of 2 × 25 = 50 points.
  Point t is phase t / 25, row block t % 25.  Phase 0 walks the row blocks of the adjacency matrix upwards, phase 1
  downwards (block 49 - t).  The first hidden-layer product is formed at point 0 only; the hidden rows, the encoder
  output y and the rows of the second product are formed at points 0 … 24; the log-softmax of the second layer at
  points 25 … 49.  The y window sits on row block t in phase 0 and stays on block 24 through phase 1 (written back
  after points 0 … 23 and once more after point 49); the logits window sits on block 24 through phase 0 (never written
  back there) and on block 49 - t in phase 1 (written back after every point of it).
-/
import proofs.«160181_g86887188398703_cont_sun_m_546_21_alg».proof.Proof.Gen.Kernel.Launch
import proofs.«160181_g86887188398703_cont_sun_m_546_21_alg».proof.Proof.Gen.Kernel.Points

noncomputable section

namespace Cert.Kernel.Hand

open Cert.Kernel Cert.Kernel.Gen
open Idealize.ShloMosaic

/-- The condition of the first conditional: phase 0 and row block 0. -/
abbrev condA (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem hcondA : ∀ t : Fin cfg0.N, condA (grid0.coords t) ↔ t.val = 0 :=
  (by decide +kernel : ∀ t : Fin grid0.N, condA (grid0.coords t) ↔ t.val = 0)
/-- Phase 0 is the points below 25. -/
theorem hcond2 : ∀ t : Fin cfg0.N, k0_cond2 (grid0.coords t) = 1#1 ↔ t.val < 25 :=
  (by decide +kernel : ∀ t : Fin grid0.N, k0_cond2 (grid0.coords t) = 1#1 ↔ t.val < 25)
/-- Phase 1 is the points from 25 on. -/
theorem hcond3 : ∀ t : Fin cfg0.N, k0_cond3 (grid0.coords t) = 1#1 ↔ 25 ≤ t.val :=
  (by decide +kernel : ∀ t : Fin grid0.N, k0_cond3 (grid0.coords t) = 1#1 ↔ 25 ≤ t.val)

/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- The logits window is idle through phase 0, the y window through phase 1. -/
theorem idle8 : ∀ t : Fin cfg0.N, cfg0.idle 8 (grid0.coords t) = decide (t.val < 25) :=
  (by decide +kernel : ∀ t : Fin grid0.N, idle0 8 (grid0.coords t) = decide (t.val < 25))
theorem idle9 : ∀ t : Fin cfg0.N, cfg0.idle 9 (grid0.coords t) = decide (25 ≤ t.val) :=
  (by decide +kernel : ∀ t : Fin grid0.N, idle0 9 (grid0.coords t) = decide (25 ≤ t.val))

/-- The logits block is written back after every point of phase 1 and after none of phase 0. -/
theorem flush8 : ∀ t : Fin cfg0.N, (cfg0.win 8).flush t = decide (25 ≤ t.val) :=
  (by decide +kernel : ∀ t : Fin grid0.N, win0_8.flush t = decide (25 ≤ t.val))
/-- The y block is written back after points 0 … 23 and after the last point. -/
theorem flush9 : ∀ t : Fin cfg0.N, (cfg0.win 9).flush t = decide (t.val < 24 ∨ t.val = 49) :=
  (by decide +kernel : ∀ t : Fin grid0.N, win0_9.flush t = decide (t.val < 24 ∨ t.val = 49))
/-- Neither output is ever fetched. -/
theorem fetch8 : ∀ t : Fin cfg0.N, (cfg0.win 8).fetch t = false :=
  (by decide +kernel : ∀ t : Fin grid0.N, win0_8.fetch t = false)
theorem fetch9 : ∀ t : Fin cfg0.N, (cfg0.win 9).fetch t = false :=
  (by decide +kernel : ∀ t : Fin grid0.N, win0_9.fetch t = false)

/-- The row block of the adjacency matrix at a point: t upwards, then 49 - t downwards. -/
theorem idx1 : ∀ t : Fin cfg0.N, win0_1.index t = ![if t.val < 25 then t.val else 49 - t.val, 0] :=
  (by decide +kernel : ∀ t : Fin grid0.N, win0_1.index t = ![if t.val < 25 then t.val else 49 - t.val, 0])
/-- The logits window's row block. -/
theorem idx8 : ∀ t : Fin cfg0.N, win0_8.index t = ![if t.val < 25 then 24 else 49 - t.val, 0] :=
  (by decide +kernel : ∀ t : Fin grid0.N, win0_8.index t = ![if t.val < 25 then 24 else 49 - t.val, 0])
/-- The y window's row block. -/
theorem idx9 : ∀ t : Fin cfg0.N, win0_9.index t = ![if t.val < 25 then t.val else 24, 0] :=
  (by decide +kernel : ∀ t : Fin grid0.N, win0_9.index t = ![if t.val < 25 then t.val else 24, 0])
/-- The rows of the second product stored at a point of phase 0 start at 400 t. -/
theorem off1 : ∀ t : Fin cfg0.N, t.val < 25 → k0_off1 (grid0.coords t) = ![400 * t.val, 0] :=
  (by decide +kernel : ∀ t : Fin grid0.N, t.val < 25 → k0_off1 (grid0.coords t) = ![400 * t.val, 0])

theorem N50 : cfg0.N = 50 := N_0

end Cert.Kernel.Hand

end
-- ==== Proof.K.Data.lean ====
/-
  What the fused graph-convolution kernel leaves, point by point, as functions of the blocks the pipeline hands it,
  and the pipeline's proof data over them.

  * S1v: the first product x · W1, formed once at point 0 and kept in the first scratch buffer from then on.
  * Yv t, S2v t (t < 25): the 400 rows of the encoder output y and of the second product h · W2 that point t forms from
    row block t of the adjacency matrix, h = relu(adj_t · S1 + b1) being that block's hidden rows.
  * S2all: the second product whole, row block j of it being S2v j — what the second scratch buffer holds once phase 0
    has stored all 25 blocks.
  * Lv t (t ≥ 25): the 400 rows of the log-softmax of adj_t · S2 + b2 that point t forms.

  The y window stays on row block 24 after phase 0 and is written back once more after the last point, at what point
  24 left there: its contents after a point of phase 1 are those after point 24.
-/
import proofs.«160181_g86887188398703_cont_sun_m_546_21_alg».proof.Proof.K.Sched
import proofs.«160181_g86887188398703_cont_sun_m_546_21_alg».proof.Proof.Gen.Kernel.Frame
import proofs.«160181_g86887188398703_cont_sun_m_546_21_alg».proof.Proof.Gen.Kernel.Skeleton
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
abbrev p0 : Fin cfg0.N := ⟨0, by decide⟩
/-- The last point of phase 0 at or before t. -/
def tmin (t : Fin cfg0.N) : Fin cfg0.N := ⟨min t.val 24, lt_of_le_of_lt (Nat.min_le_right _ _) (by decide)⟩

theorem tmin_lt (t : Fin cfg0.N) (h : t.val < 25) : tmin t = t := Fin.ext (by unfold tmin; simp only; omega)
theorem tmin_ge (t : Fin cfg0.N) (h : 25 ≤ t.val) : (tmin t).val = 24 := by unfold tmin; simp only; omega

/-- The scratch operands as memrefs. -/
abbrev scM0 : Memref sig .tc .vmem S10000x128 .bf16 := Memref.whole cc0_scratch0
abbrev scM1 : Memref sig .tc .vmem S10000x64 .bf16 := Memref.whole cc0_scratch1

/-- x · W1, from the blocks point 0 is handed. -/
def S1v (c : Dev nD) : Vec F S10000x128 .bf16 := k0_pay1 (iblk m c 0 p0) (iblk m c 2 p0)
/-- The rows of y point t forms. -/
def Yv (c : Dev nD) (t : Fin cfg0.N) : Vec F S400x16 .f32 :=
  k0_pay3 (iblk m c 1 t) (S1v m c) (iblk m c 3 t) (iblk m c 6 t) (iblk m c 7 t)
/-- The rows of h · W2 point t forms. -/
def S2v (c : Dev nD) (t : Fin cfg0.N) : Vec F S400x64 .bf16 :=
  k0_pay4 (iblk m c 1 t) (S1v m c) (iblk m c 3 t) (iblk m c 4 t)
/-- h · W2 whole: row r is row r % 400 of what point r / 400 formed. -/
def S2all (c : Dev nD) : Vec F S10000x64 .bf16 := fun idx =>
  S2v m c ⟨(idx 0).val / 400, by have h : (idx 0).val < 10000 := (idx 0).isLt; have : cfg0.N = 50 := N_0; omega⟩
    (ValueIdx.ix2 (⟨(idx 0).val % 400, Nat.mod_lt _ (by decide)⟩ : Fin 400) (⟨(idx 1).val, (idx 1).isLt⟩ : Fin 64))
/-- The rows of the log-softmax point t forms. -/
def Lv (c : Dev nD) (t : Fin cfg0.N) : Vec F S400x64 .f32 :=
  k0_pay5 (iblk m c 1 t) (S2all m c) (iblk m c 5 t)

/-- The rows of the second scratch buffer point j of phase 0 stores. -/
abbrev rectS2 (j : Fin cfg0.N) (hj : j.val < 25) : Rect S10000x64 :=
  Rect.unit (s := S10000x64) (k0_off1 (grid0.coords j)) S400x64.size (k0_off1_inb (grid0.coords j) ((hcond2 j).mpr hj))

/-- Contents R of the second scratch buffer hold the row blocks of h · W2 stored before point n. -/
def s2P (c : Dev nD) (n : ℕ) (R : Vec F S10000x64 .bf16) : Prop :=
  ∀ (j : Fin cfg0.N) (hj : j.val < 25), j.val < n → ∀ y : S400x64.Idx, R ((rectS2 j hj).emb y) = S2v m c j y

/-- The invariant between points: before the first, both scratch buffers at anything; after it the first scratch at
    x · W1 and the second holding the row blocks of h · W2 stored so far. -/
def Phi (c : Dev nD) : ℕ → sProp 𝕄
  | 0 => iprop(iprop((∃ d, owns (c : Thread nD τ) scM0 fullShare d)
      ∗ (∃ g, scM1.view.loc (c : Thread nD τ) ↦[scM1.view.set]{fullShare} g)) ∗ (∃ r, prngReg c r))
  | n + 1 => iprop(iprop(owns (c : Thread nD τ) scM0 fullShare (S1v m c)
      ∗ (∃ g, ⌜s2P m c (n + 1) (scM1.view.read (Elt F) g)⌝ ∗ scM1.view.loc (c : Thread nD τ) ↦[scM1.view.set]{fullShare} g))
      ∗ (∃ r, prngReg c r))

theorem Phi_zero (c : Dev nD) : Phi m c 0 = iprop(iprop((∃ d, owns (c : Thread nD τ) scM0 fullShare d)
      ∗ (∃ g, scM1.view.loc (c : Thread nD τ) ↦[scM1.view.set]{fullShare} g)) ∗ (∃ r, prngReg c r)) := rfl
theorem Phi_pos (c : Dev nD) (n : ℕ) (hn : n ≠ 0) :
    Phi m c n = iprop(iprop(owns (c : Thread nD τ) scM0 fullShare (S1v m c)
      ∗ (∃ g, ⌜s2P m c n (scM1.view.read (Elt F) g)⌝ ∗ scM1.view.loc (c : Thread nD τ) ↦[scM1.view.set]{fullShare} g))
      ∗ (∃ r, prngReg c r)) := by
  cases n with
  | zero => exact absurd rfl hn
  | succ n => rfl

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Lv m c t
    | ⟨9, _⟩ => Yv m c (tmin t)
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = Lv m c t := by dsimp only [dats]
theorem after9 (c : Dev nD) (t : Fin cfg0.N) : (dats m 0 c).after 9 t = Yv m c (tmin t) := by dsimp only [dats]

theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

end Cert.Kernel.Hand

end
-- ==== Proof.K.S2Inv.lean ====
/-
  The second scratch buffer through phase 0.  Point t < 25 stores the 400 rows S2v t of h · W2 at rows 400 t … 400 t + 399
  and touches no other row; so after point t the buffer holds the row blocks 0 … t, and after point 24 it holds h · W2
  whole (S2all): the 25 row blocks are disjoint and cover the 10000 rows.
-/
import proofs.«160181_g86887188398703_cont_sun_m_546_21_alg».proof.Proof.K.Data
import Idealize.ShloMosaic.Lib.Pipeline.FrameBody
import Idealize.ShloMosaic.Lib.WritesUnit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Row block j starts at row 400 j: position y of it is row 400 j + y 0 of the buffer. -/
private theorem rectS2_row (j : Fin cfg0.N) (hj : j.val < 25) (y : S400x64.Idx) :
    ((rectS2 j hj).emb y 0).val = 400 * j.val + (y 0).val := by
  have e0 : k0_off1 (grid0.coords j) 0 = 400 * j.val := by rw [off1 j hj]; rfl
  show k0_off1 (grid0.coords j) 0 + 1 * (y 0).val = _
  rw [e0, Nat.one_mul]

/-- Row block j takes every column: position y of it is column y 1 of the buffer. -/
private theorem rectS2_col (j : Fin cfg0.N) (hj : j.val < 25) (y : S400x64.Idx) :
    ((rectS2 j hj).emb y 1).val = (y 1).val := by
  have e1 : k0_off1 (grid0.coords j) 1 = 0 := by rw [off1 j hj]; rfl
  show k0_off1 (grid0.coords j) 1 + 1 * (y 1).val = _
  rw [e1, Nat.one_mul, Nat.zero_add]

/-- Row 400 a + b with b < 400 lies in row block a, at position b. -/
private theorem row_div (a b r : ℕ) (hb : b < 400) (hr : r = 400 * a + b) : r / 400 = a := by omega
private theorem row_mod (a b r : ℕ) (hb : b < 400) (hr : r = 400 * a + b) : r % 400 = b := by omega

/-- Before the first point nothing is asked of the buffer. -/
theorem s2P_zero (c : Dev nD) (R : Vec F S10000x64 .bf16) : s2P m c 0 R := fun j hj h => absurd h (Nat.not_lt_zero _)

/-- Storing point t's rows over contents that hold the blocks before t gives contents that hold the blocks up to t. -/
theorem s2P_step (c : Dev nD) (t : Fin cfg0.N) (ht : t.val < 25) (g : Buf (Elt F) (scM1.view.loc (c : Thread nD τ)))
    (h : s2P m c t.val (scM1.view.read (Elt F) g)) :
    s2P m c (t.val + 1) (scM1.view.read (Elt F) (scM1.view.writes (Elt F) g [⟨rectS2 t ht, S2v m c t⟩])) := by
  intro j hj hjt y
  by_cases hjt' : j = t
  · -- the block just stored reads the payload stored
    subst hjt'
    exact View.read_writes_cons_emb scM1.view g (rectS2 j ht) (S2v m c j) [] y
  · -- an earlier block lies wholly above the rows just stored, and keeps what it held
    have hlt : j.val < t.val := by
      have hne : j.val ≠ t.val := fun e => hjt' (Fin.ext e)
      omega
    have hy0 : (y 0).val < 400 := (y 0).isLt
    have hr := rectS2_row j hj y
    have hout : ((rectS2 j hj).emb y (0 : Fin 2)).val < 400 * t.val
        ∨ 400 * t.val + 400 ≤ ((rectS2 j hj).emb y (0 : Fin 2)).val := by
      left
      show ((rectS2 j hj).emb y 0).val < 400 * t.val
      rw [hr]; omega
    refine (View.read_writes_cons_rows_of_not_mem scM1.view g _ (S2v m c t) [] ((rectS2 j hj).emb y)
      (off1 t ht) rfl hout).trans ?_
    rw [View.writes_nil]
    exact h j hj hlt y

/-- Contents that hold all 25 row blocks are h · W2 whole. -/
theorem s2P_full (c : Dev nD) (n : ℕ) (hn : 25 ≤ n) (R : Vec F S10000x64 .bf16) (h : s2P m c n R) : R = S2all m c := by
  funext idx
  have h0 : (idx 0).val < 10000 := (idx 0).isLt
  have hN : cfg0.N = 50 := N50
  have hjN : (idx 0).val / 400 < cfg0.N := by omega
  have hj : (⟨(idx 0).val / 400, hjN⟩ : Fin cfg0.N).val < 25 := by
    show (idx 0).val / 400 < 25
    omega
  have hn' : (⟨(idx 0).val / 400, hjN⟩ : Fin cfg0.N).val < n := by
    show (idx 0).val / 400 < n
    omega
  -- every index is position (row % 400, column) of row block row / 400
  have hidx : idx = (rectS2 ⟨(idx 0).val / 400, hjN⟩ hj).emb
      (ValueIdx.ix2 (⟨(idx 0).val % 400, Nat.mod_lt _ (by decide)⟩ : Fin 400) (⟨(idx 1).val, (idx 1).isLt⟩ : Fin 64)) := by
    funext a
    apply Fin.ext
    match a with
    | ⟨0, _⟩ =>
      refine Eq.trans ?_ (rectS2_row _ hj _).symm
      show (idx 0).val = 400 * ((idx 0).val / 400) + (idx 0).val % 400
      omega
    | ⟨1, _⟩ =>
      refine Eq.trans ?_ (rectS2_col _ hj _).symm
      rfl
  exact (congrArg R hidx).trans (h _ hj hn' _)

/-- h · W2 whole holds every row block. -/
theorem s2P_all (c : Dev nD) (n : ℕ) : s2P m c n (S2all m c) := by
  intro j hj _ y
  have hy0 : (y 0).val < 400 := (y 0).isLt
  have hr := rectS2_row j hj y
  have hc := rectS2_col j hj y
  have key : ∀ (j' : Fin cfg0.N) (y' : S400x64.Idx), j' = j → y' = y → S2v m c j' y' = S2v m c j y := by
    intro j' y' e1 e2
    rw [e1, e2]
  unfold S2all
  apply key
  · apply Fin.ext
    show ((rectS2 j hj).emb y 0).val / 400 = j.val
    exact row_div _ _ _ hy0 hr
  · funext a
    apply Fin.ext
    match a with
    | ⟨0, _⟩ =>
      show ((rectS2 j hj).emb y 0).val % 400 = (y 0).val
      exact row_mod _ _ _ hy0 hr
    | ⟨1, _⟩ => exact hc

end Cert.Kernel.Hand

end
-- ==== Proof.K.RunA.lean ====
/-
  The kernel body at the first point (phase 0, row block 0): it forms x · W1 and stores it whole into the first scratch
  buffer, then from it the hidden rows of row block 0, their encoder output (stored whole into the y buffer) and their
  product with W2 (stored into rows 0 … 399 of the second scratch buffer).  The logits buffer is not touched.
-/
import proofs.«160181_g86887188398703_cont_sun_m_546_21_alg».proof.Proof.K.Sched
import proofs.«160181_g86887188398703_cont_sun_m_546_21_alg».proof.Proof.Gen.Kernel.Skeleton
import proofs.«160181_g86887188398703_cont_sun_m_546_21_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer rectangle are zero. -/
theorem runA_zero : (![0, 0] : Fin 2 → ℕ) = fun _ => 0 := funext fun a => by fin_cases a <;> rfl

/-- A load of a whole buffer through the whole-buffer rectangle reads what the buffer reads as. -/
theorem runA_load {S : Shape} {e : EltTy} (m : Memref sig .tc .vmem S e) (hm : m.IsWhole) (X : Vec F S e)
    {off : Fin S.rank → ℕ} (h : off = fun _ => 0) (inb : ∀ a, off a + S.size a ≤ S.size a) :
    View.readAt (Elt F) m.view (Rect.unit off S.size inb).toLoadRect (hm.unread X) = X := by
  rw [View.readAt_eq_ld, Memref.IsWhole.read_unread, View.ld_unit_zero h]

/-- One store through the whole-buffer rectangle, over any prior contents, reads as its payload. -/
theorem runA_stored {S : Shape} {e : EltTy} (m : Memref sig .tc .vmem S e) (f : m.view.ty.Contents (Elt F))
    {off : Fin S.rank → ℕ} (h : off = fun _ => 0) (inb : ∀ a, off a + S.size a ≤ S.size a) (w : Vec F S e) :
    m.view.read (Elt F) (m.view.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

set_option maxHeartbeats 1000000 in
/-- The body at a point where all of phase 0's work is done, the first product included. -/
theorem runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S400x64 .f32) (harg10 : arg10.IsWhole) (arg11 : Memref sig .tc .vmem S400x16 .f32) (harg11 : arg11.IsWhole) (arg12 : Memref sig .tc .vmem S10000x128 .bf16) (harg12 : arg12.IsWhole) (arg13 : Memref sig .tc .vmem S10000x64 .bf16) (harg13 : arg13.IsWhole)
    (hc0 : condA i) (hc1 : k0_cond2 i = 1#1) (hc2 : ¬ k0_cond3 i = 1#1)
    (x0 : Vec F S10000x128 .f32) (x1 : Vec F S400x10000 .f32) (x2 : Vec F S128x128 .f32) (x3 : Vec F S1x128 .f32) (x4 : Vec F S128x64 .f32) (x5 : Vec F S1x64 .f32) (x6 : Vec F S128x16 .f32) (x7 : Vec F S1x16 .f32) (d8 : Vec F S400x64 .f32) (g : Buf (Elt F) (arg13.view.loc (c : Thread nD τ)))
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ (∃ d, owns (c : Thread nD τ) arg11 fullShare d) ∗ (∃ d, owns (c : Thread nD τ) arg12 fullShare d) ∗ (arg13.view.loc (c : Thread nD τ) ↦[arg13.view.set]{fullShare} g)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare (k0_pay3 x1 (k0_pay1 x0 x2) x3 x6 x7) ∗ owns (c : Thread nD τ) arg12 fullShare (k0_pay1 x0 x2)
            ∗ (arg13.view.loc (c : Thread nD τ) ↦[arg13.view.set]{fullShare} arg13.view.writes (Elt F) g [⟨Rect.unit (s := S10000x64) (k0_off1 i) S400x64.size (k0_off1_inb i hc1), k0_pay4 x1 (k0_pay1 x0 x2) x3 x4⟩])) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HS1, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  sl_exec (disch := first | exact hc0 | exact hc1 | exact hc2)
  sl_step
  iapply Hk
  sl_unfold_run_names
  rewrite [runA_load arg2 harg2 x0 runA_zero, runA_load arg4 harg4 x2 runA_zero, runA_load arg3 harg3 x1 runA_zero,
    runA_load arg5 harg5 x3 runA_zero, runA_load arg6 harg6 x4 runA_zero, runA_load arg8 harg8 x6 runA_zero,
    runA_load arg9 harg9 x7 runA_zero, View.readCov_unit_zero arg12.view runA_zero]
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    exact runA_stored arg11 f9 runA_zero _ _
  isplitl [HS0]
  · iexists _; isplitr
    swap; · iexact HS0
    ipureintro
    exact runA_stored arg12 fs0 runA_zero _ _
  iexact HS1

end Cert.Kernel.Hand

end
-- ==== Proof.K.RunB.lean ====
/-
  The kernel body at a later point of phase 0 (row block i₁ > 0): from the first scratch buffer, which holds x · W1, it
  forms the hidden rows of the row block, their encoder output (stored whole into the y buffer) and their product with
  W2 (stored into rows 400 i₁ … 400 i₁ + 399 of the second scratch buffer).  The logits buffer and the first scratch
  buffer are not written.
-/
import proofs.«160181_g86887188398703_cont_sun_m_546_21_alg».proof.Proof.K.Sched
import proofs.«160181_g86887188398703_cont_sun_m_546_21_alg».proof.Proof.Gen.Kernel.Skeleton
import proofs.«160181_g86887188398703_cont_sun_m_546_21_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle's offsets are zero. -/
theorem hzB : (![0, 0] : Fin 2 → ℕ) = fun _ => 0 := funext fun a => by fin_cases a <;> rfl

/-- A load through the whole-buffer rectangle of a whole memref holding X reads X. -/
theorem readAt_wholeB {S : Shape} {e : EltTy} (m : Memref sig .tc .vmem S e) (hm : m.IsWhole) {off : Fin S.rank → ℕ}
    (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-- One store through the whole-buffer rectangle leaves a buffer that reads as its payload. -/
theorem read_store_wholeB {S : Shape} {e : EltTy} (m : Memref sig .tc .vmem S e) (f : m.view.ty.Contents (Elt F)) {off : Fin S.rank → ℕ}
    (h : off = fun _ => 0) (inb : ∀ a, off a + S.size a ≤ S.size a) (w : S.Idx → Elt F e) :
    m.view.read (Elt F) (m.view.writes (Elt F) f [⟨Rect.unit off S.size inb, w⟩]) = w := by
  rw [View.read_writes_eq_canon _ _ _ (fun y => ⟨_, List.mem_singleton_self _, View.mem_set_unit_zero h inb y⟩),
    View.canon_unit_zero h]

set_option maxHeartbeats 1000000 in
/-- The body at a point of phase 0 other than the first. -/
theorem runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S400x64 .f32) (harg10 : arg10.IsWhole) (arg11 : Memref sig .tc .vmem S400x16 .f32) (harg11 : arg11.IsWhole) (arg12 : Memref sig .tc .vmem S10000x128 .bf16) (harg12 : arg12.IsWhole) (arg13 : Memref sig .tc .vmem S10000x64 .bf16) (harg13 : arg13.IsWhole)
    (hc0 : ¬ condA i) (hc1 : k0_cond2 i = 1#1) (hc2 : ¬ k0_cond3 i = 1#1)
    (x0 : Vec F S10000x128 .f32) (x1 : Vec F S400x10000 .f32) (x2 : Vec F S128x128 .f32) (x3 : Vec F S1x128 .f32) (x4 : Vec F S128x64 .f32) (x5 : Vec F S1x64 .f32) (x6 : Vec F S128x16 .f32) (x7 : Vec F S1x16 .f32) (d8 : Vec F S400x64 .f32) (s1 : Vec F S10000x128 .bf16) (g : Buf (Elt F) (arg13.view.loc (c : Thread nD τ)))
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ (∃ d, owns (c : Thread nD τ) arg11 fullShare d) ∗ owns (c : Thread nD τ) arg12 fullShare s1 ∗ (arg13.view.loc (c : Thread nD τ) ↦[arg13.view.set]{fullShare} g)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare (k0_pay3 x1 s1 x3 x6 x7) ∗ owns (c : Thread nD τ) arg12 fullShare s1
            ∗ (arg13.view.loc (c : Thread nD τ) ↦[arg13.view.set]{fullShare} arg13.view.writes (Elt F) g [⟨Rect.unit (s := S10000x64) (k0_off1 i) S400x64.size (k0_off1_inb i hc1), k0_pay4 x1 s1 x3 x4⟩])) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, HS1, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
  sl_exec (disch := first | exact hc0 | exact hc1 | exact hc2)
  sl_step
  iapply Hk
  simp only [readAt_wholeB (S := S400x10000) _ _ hzB, readAt_wholeB (S := S10000x128) _ _ hzB, readAt_wholeB (S := S1x128) _ _ hzB, readAt_wholeB (S := S128x16) _ _ hzB, readAt_wholeB (S := S1x16) _ _ hzB, readAt_wholeB (S := S128x64) _ _ hzB]
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; exact read_store_wholeB (S := S400x16) _ _ hzB _ _
  isplitl [HS0]
  · iexists _; isplitr; · ipureintro; exact harg12.read_unread _
    iexact HS0
  iexact HS1

end Cert.Kernel.Hand

end
-- ==== Proof.K.RunC.lean ====
/-
  The kernel body at a point of phase 1: from the second scratch buffer, which holds h · W2 whole, and the point's row
  block of the adjacency matrix it forms the block's logits, subtracts each row's maximum, and stores the rows less the
  logarithm of their exponentials' sum whole into the logits buffer.  The y buffer and both scratch buffers are not
  written.
-/
import proofs.«160181_g86887188398703_cont_sun_m_546_21_alg».proof.Proof.K.Sched
import proofs.«160181_g86887188398703_cont_sun_m_546_21_alg».proof.Proof.Gen.Kernel.Skeleton
import proofs.«160181_g86887188398703_cont_sun_m_546_21_alg».proof.Proof.Gen.Kernel.Launch
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle's offsets are zero. -/
theorem offC_zero : (![0, 0] : Fin 2 → ℕ) = fun _ => 0 := funext fun a => by fin_cases a <;> rfl

set_option maxHeartbeats 1000000 in
/-- The body at a point of phase 1. -/
theorem runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S400x64 .f32) (harg10 : arg10.IsWhole) (arg11 : Memref sig .tc .vmem S400x16 .f32) (harg11 : arg11.IsWhole) (arg12 : Memref sig .tc .vmem S10000x128 .bf16) (harg12 : arg12.IsWhole) (arg13 : Memref sig .tc .vmem S10000x64 .bf16) (harg13 : arg13.IsWhole)
    (hc0 : ¬ condA i) (hc1 : ¬ k0_cond2 i = 1#1) (hc2 : k0_cond3 i = 1#1)
    (x0 : Vec F S10000x128 .f32) (x1 : Vec F S400x10000 .f32) (x2 : Vec F S128x128 .f32) (x3 : Vec F S1x128 .f32) (x4 : Vec F S128x64 .f32) (x5 : Vec F S1x64 .f32) (x6 : Vec F S128x16 .f32) (x7 : Vec F S1x16 .f32) (d9 : Vec F S400x16 .f32) (s1 : Vec F S10000x128 .bf16) (s2 : Vec F S10000x64 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare d9 ∗ owns (c : Thread nD τ) arg12 fullShare s1 ∗ owns (c : Thread nD τ) arg13 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay5 x1 s2 x5) ∗ owns (c : Thread nD τ) arg11 fullShare d9 ∗ owns (c : Thread nD τ) arg12 fullShare s1 ∗ owns (c : Thread nD τ) arg13 fullShare s2) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13) K := by
  -- the printed body is its skeleton; each buffer's ownership is opened at its raw contents
  simp only [cc0__gcn_body_eq_skeleton]; unfold cc0__gcn_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
  -- a whole buffer's raw contents are determined by what it reads as
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg11.eq_unread hf11
  obtain rfl := harg12.eq_unread hf12
  obtain rfl := harg13.eq_unread hf13
  -- the first two conditionals are skipped, the third runs: three loads, the unused load of the logits buffer, one store
  sl_exec (disch := first | exact hc0 | exact hc1 | exact hc2)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  -- the one store covers the logits buffer, so it reads as the payload; each load through the whole rectangle reads its buffer's value
  isplitl [H10]
  · iexists _; isplitr
    swap; · iexact H10
    ipureintro
    rw [View.read_writes_eq_canon _ _ _ (fun y => ⟨_, List.mem_singleton_self _, View.mem_set_unit_zero offC_zero inb_S400x64_S400x64_0_0 y⟩),
      View.canon_unit_zero offC_zero]
    rw [View.readAt_eq_ld, View.readAt_eq_ld, View.readAt_eq_ld, harg3.read_unread, harg13.read_unread, harg7.read_unread,
      View.ld_unit_zero offC_zero, View.ld_unit_zero offC_zero, View.ld_unit_zero offC_zero]
  isplitl [H11]
  · iexists _; isplitr
    · ipureintro; exact harg11.read_unread _
    iexact H11
  isplitl [H12]
  · iexists _; isplitr
    · ipureintro; exact harg12.read_unread _
    iexact H12
  iexists _; isplitr
  · ipureintro; exact harg13.read_unread _
  iexact H13

end Cert.Kernel.Hand

end
-- ==== Proof.K.Body.lean ====
/-
  The body obligation of the fused graph-convolution kernel and its frame run.

  At every point the pipeline hands the body each input window's block (the inputs are never idle and the body leaves
  them as found), the logits window's buffer and the y window's buffer, and the invariant: before the first point both
  scratch buffers at anything; afterwards the first at x · W1 and the second holding the row blocks of h · W2 stored so
  far.  Four kinds of point:
  * point 0 forms x · W1, then does phase 0's work for row block 0;
  * points 1 … 24 do phase 0's work for their row block: y's rows are left in the y buffer, the rows of h · W2 go into
    the second scratch buffer, the logits buffer is handed back as found;
  * points 25 … 48 form the log-softmax rows of row block 49 - t from the second scratch buffer, which by then holds
    h · W2 whole; the y buffer is handed back as found — it still holds what point 24 left, the window not having moved;
  * point 49 does the same, and there the y window is written back once more: what it writes is what point 24 left.
-/
import proofs.«160181_g86887188398703_cont_sun_m_546_21_alg».proof.Proof.K.Data
import proofs.«160181_g86887188398703_cont_sun_m_546_21_alg».proof.Proof.K.S2Inv
import proofs.«160181_g86887188398703_cont_sun_m_546_21_alg».proof.Proof.K.RunA
import proofs.«160181_g86887188398703_cont_sun_m_546_21_alg».proof.Proof.K.RunB
import proofs.«160181_g86887188398703_cont_sun_m_546_21_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the windows' buffers hold when the body runs, and what it must leave -/

theorem leaves0 (c : Dev nD) (t : Fin cfg0.N) :
    (dats m 0 c).leavesExact 0 t = owns (c : Thread nD τ) (st0_0 t) fullShare (iblk m c 0 t) := by
  unfold Dat.leavesExact; rw [live0 t, after0]
theorem leaves1 (c : Dev nD) (t : Fin cfg0.N) :
    (dats m 0 c).leavesExact 1 t = owns (c : Thread nD τ) (st0_1 t) fullShare (iblk m c 1 t) := by
  unfold Dat.leavesExact; rw [live1 t, after1]
theorem leaves2 (c : Dev nD) (t : Fin cfg0.N) :
    (dats m 0 c).leavesExact 2 t = owns (c : Thread nD τ) (st0_2 t) fullShare (iblk m c 2 t) := by
  unfold Dat.leavesExact; rw [live2 t, after2]
theorem leaves3 (c : Dev nD) (t : Fin cfg0.N) :
    (dats m 0 c).leavesExact 3 t = owns (c : Thread nD τ) (st0_3 t) fullShare (iblk m c 3 t) := by
  unfold Dat.leavesExact; rw [live3 t, after3]
theorem leaves4 (c : Dev nD) (t : Fin cfg0.N) :
    (dats m 0 c).leavesExact 4 t = owns (c : Thread nD τ) (st0_4 t) fullShare (iblk m c 4 t) := by
  unfold Dat.leavesExact; rw [live4 t, after4]
theorem leaves5 (c : Dev nD) (t : Fin cfg0.N) :
    (dats m 0 c).leavesExact 5 t = owns (c : Thread nD τ) (st0_5 t) fullShare (iblk m c 5 t) := by
  unfold Dat.leavesExact; rw [live5 t, after5]
theorem leaves6 (c : Dev nD) (t : Fin cfg0.N) :
    (dats m 0 c).leavesExact 6 t = owns (c : Thread nD τ) (st0_6 t) fullShare (iblk m c 6 t) := by
  unfold Dat.leavesExact; rw [live6 t, after6]
theorem leaves7 (c : Dev nD) (t : Fin cfg0.N) :
    (dats m 0 c).leavesExact 7 t = owns (c : Thread nD τ) (st0_7 t) fullShare (iblk m c 7 t) := by
  unfold Dat.leavesExact; rw [live7 t, after7]

/-- Through phase 0 the logits window is idle and not written back: its buffer is handed back as found. -/
theorem leaves8_ph0 (c : Dev nD) (t : Fin cfg0.N) (h : t.val < 25) :
    (dats m 0 c).leavesExact 8 t = iprop(∃ d, owns (c : Thread nD τ) (st0_8 t) fullShare ((dats m 0 c).before 8 t d)) :=
  (dats m 0 c).leavesExact_idle 8 t (by rw [idle8]; exact decide_eq_true h) (by rw [flush8]; exact decide_eq_false (by omega))
/-- Through phase 1 it is live: its buffer holds the point's log-softmax rows. -/
theorem leaves8_ph1 (c : Dev nD) (t : Fin cfg0.N) (h : 25 ≤ t.val) :
    (dats m 0 c).leavesExact 8 t = owns (c : Thread nD τ) (st0_8 t) fullShare (Lv m c t) := by
  unfold Dat.leavesExact; rw [idle8 t, decide_eq_false (by omega : ¬ t.val < 25), after8]
/-- Through phase 0 the y window is live: its buffer holds the point's rows of y. -/
theorem leaves9_ph0 (c : Dev nD) (t : Fin cfg0.N) (h : t.val < 25) :
    (dats m 0 c).leavesExact 9 t = owns (c : Thread nD τ) (st0_9 t) fullShare (Yv m c t) := by
  unfold Dat.leavesExact; rw [idle9 t, decide_eq_false (by omega : ¬ 25 ≤ t.val), after9, tmin_lt t h]
/-- Through phase 1 but for the last point it is idle and not written back. -/
theorem leaves9_ph1 (c : Dev nD) (t : Fin cfg0.N) (h : 25 ≤ t.val) (h' : t.val ≠ 49) :
    (dats m 0 c).leavesExact 9 t = iprop(∃ d, owns (c : Thread nD τ) (st0_9 t) fullShare ((dats m 0 c).before 9 t d)) :=
  (dats m 0 c).leavesExact_idle 9 t (by rw [idle9]; exact decide_eq_true h) (by rw [flush9]; exact decide_eq_false (by omega))
/-- At the last point it is idle and written back: the buffer must hold what the proof data names. -/
theorem leaves9_last (c : Dev nD) (t : Fin cfg0.N) (h' : t.val = 49) :
    (dats m 0 c).leavesExact 9 t = owns (c : Thread nD τ) (st0_9 t) fullShare (Yv m c (tmin t)) := by
  unfold Dat.leavesExact
  rw [idle9 t, decide_eq_true (by omega : 25 ≤ t.val), flush9 t, decide_eq_true (by omega : t.val < 24 ∨ t.val = 49), after9]

/-- Through phase 1 the y window's buffer still holds what point 24 left: the window does not move after point 24, is
    not written back before the last point, and no point of phase 1 stores into it. -/
theorem before9_ph1 (c : Dev nD) : ∀ (n : ℕ) (t : Fin cfg0.N), t.val = n → 25 ≤ n → ∀ d,
    (dats m 0 c).before 9 t d = Yv m c (tmin t) := by
  intro n
  induction n with
  | zero => intro t _ h; omega
  | succ n ih =>
    intro t ht h d
    have hN : t.val < 50 := lt_of_lt_of_eq t.isLt N50
    have hpos : t.val ≠ 0 := by omega
    rw [(dats m 0 c).before_of_pos 9 t hpos (fetch9 t) d]
    have hfl : (cfg0.win 9).flush ⟨t.val - 1, Nat.lt_of_le_of_lt (Nat.sub_le _ _) t.isLt⟩ = false := by
      rw [flush9]; exact decide_eq_false (by simp only; omega)
    rw [hfl, if_neg Bool.false_ne_true]
    unfold Dat.left
    by_cases h25 : n = 24
    · -- the point before is point 24, the last of phase 0: live, so the buffer holds what it left
      have hid : cfg0.idle 9 (cfg0.grid.coords ⟨t.val - 1, Nat.lt_of_le_of_lt (Nat.sub_le _ _) t.isLt⟩) = false := by
        rw [idle9]; exact decide_eq_false (by simp only; omega)
      rw [hid]
      show (dats m 0 c).after 9 ⟨t.val - 1, _⟩ = _
      rw [after9]
      exact congrArg (Yv m c) (Fin.ext (by unfold tmin; simp only; omega))
    · -- the point before is of phase 1: idle, so the buffer holds what that point found
      have hid : cfg0.idle 9 (cfg0.grid.coords ⟨t.val - 1, Nat.lt_of_le_of_lt (Nat.sub_le _ _) t.isLt⟩) = true := by
        rw [idle9]; exact decide_eq_true (by simp only; omega)
      rw [hid]
      show (dats m 0 c).before 9 ⟨t.val - 1, _⟩ d = _
      rw [ih ⟨t.val - 1, Nat.lt_of_le_of_lt (Nat.sub_le _ _) t.isLt⟩ (by simp only; omega) (by omega) d]
      exact congrArg (Yv m c) (Fin.ext (by unfold tmin; simp only; omega))

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The first point. -/
theorem sound_A (c : Dev nD) (t : Fin cfg0.N) (h0 : t.val = 0) :
    bodyPre m c t ⊢ wp frame (wpE (defs₀ (F := F)) Variants.none c none) Set.univ (bodyAt0 t) (fun _ => bodyPost m c t) := by
  obtain rfl : t = p0 := Fin.ext h0
  unfold bodyPre bodyPost bodyAt0
  simp only [before0, before1, before2, before3, before4, before5, before6, before7]
  rw [show (dats m 0 c).owesAt () (p0 : Fin cfg0.N).succ = (dats m 0 c).owesAt () (p0 : Fin cfg0.N).castSucc from rfl]
  rw [Phi_castSucc, Phi_succ, Phi_zero, Phi_pos m c ((p0 : Fin cfg0.N).val + 1) (Nat.succ_ne_zero _)]
  rw [leaves0, leaves1, leaves2, leaves3, leaves4, leaves5, leaves6, leaves7, leaves8_ph0 m c p0 (by decide), leaves9_ph0 m c p0 (by decide)]
  unfold Yv S1v
  iintro ⟨⟨⟨HS0, ⟨%g, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runA c (grid0.coords p0) _ _ _ _ _ _ _ _ _ _ _ _ _ _ _ _ _ _ _ _ _ _ _ _ ((hcondA p0).mpr rfl) ((hcond2 p0).mpr (by decide)) (fun h => absurd ((hcond3 p0).mp h) (by decide))
    (iblk m c 0 p0) (iblk m c 1 p0) (iblk m c 2 p0) (iblk m c 3 p0) (iblk m c 4 p0) (iblk m c 5 p0) (iblk m c 6 p0) (iblk m c 7 p0) ((dats m 0 c).before 8 p0 d8) g Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]; · iexact HS0
      iexists _; isplitr; swap; · iexact HS1
      ipureintro
      exact s2P_step m c p0 (by decide) g (s2P_zero m c _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  iexact H9

set_option maxHeartbeats 4000000 in
/-- A later point of phase 0. -/
theorem sound_B (c : Dev nD) (t : Fin cfg0.N) (h0 : t.val ≠ 0) (h1 : t.val < 25) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [Phi_castSucc, Phi_succ, Phi_pos m c t.val h0, Phi_pos m c (t.val + 1) (Nat.succ_ne_zero _)]
  rw [leaves0, leaves1, leaves2, leaves3, leaves4, leaves5, leaves6, leaves7, leaves8_ph0 m c t h1, leaves9_ph0 m c t h1]
  unfold Yv
  iintro ⟨⟨⟨HS0, ⟨%g, %hg, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runB c (grid0.coords t) _ _ _ _ _ _ _ _ _ _ _ _ _ _ _ _ _ _ _ _ _ _ _ _ (fun h => h0 ((hcondA t).mp h)) ((hcond2 t).mpr h1) (fun h => absurd ((hcond3 t).mp h) (by omega))
    (iblk m c 0 t) (iblk m c 1 t) (iblk m c 2 t) (iblk m c 3 t) (iblk m c 4 t) (iblk m c 5 t) (iblk m c 6 t) (iblk m c 7 t) ((dats m 0 c).before 8 t d8) (S1v m c) g Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]; · iexact HS0
      iexists _; isplitr; swap; · iexact HS1
      ipureintro
      exact s2P_step m c t h1 g hg
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  iexact H9

set_option maxHeartbeats 4000000 in
/-- A point of phase 1: the y window's post stated as Q, which is either case of it. -/
theorem sound_C (c : Dev nD) (t : Fin cfg0.N) (h2 : 25 ≤ t.val) :
    bodyPre m c t ⊢ wp frame (wpE (defs₀ (F := F)) Variants.none c none) Set.univ (bodyAt0 t) (fun _ => bodyPost m c t) := by
  have hN : t.val < 50 := lt_of_lt_of_eq t.isLt N50
  have h0 : t.val ≠ 0 := by omega
  unfold bodyPre bodyPost bodyAt0
  simp only [before0, before1, before2, before3, before4, before5, before6, before7]
  rw [show (dats m 0 c).owesAt () t.succ = (dats m 0 c).owesAt () t.castSucc from rfl]
  rw [Phi_castSucc, Phi_succ, Phi_pos m c t.val h0, Phi_pos m c (t.val + 1) (Nat.succ_ne_zero _)]
  rw [leaves0, leaves1, leaves2, leaves3, leaves4, leaves5, leaves6, leaves7, leaves8_ph1 m c t h2]
  have hy : (iprop(∃ d, owns (c : Thread nD τ) (st0_9 t) fullShare ((dats m 0 c).before 9 t d)) : sProp 𝕄) ⊢ (dats m 0 c).leavesExact 9 t := by
    by_cases h49 : t.val = 49
    · rw [leaves9_last m c t h49]
      iintro ⟨%d, H⟩
      rw [before9_ph1 m c t.val t rfl h2 d]
      iexact H
    · rw [leaves9_ph1 m c t h2 h49]
  unfold Lv
  iintro ⟨⟨⟨HS0, ⟨%g, %hg, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hR : scM1.view.read (Elt F) g = S2all m c := s2P_full m c t.val h2 _ hg
  iapply (runC c (grid0.coords t) _ _ _ _ _ _ _ _ _ _ _ _ _ _ _ _ _ _ _ _ _ _ _ _ (fun h => h0 ((hcondA t).mp h)) (fun h => absurd ((hcond2 t).mp h) (by omega)) ((hcond3 t).mpr h2)
    (iblk m c 0 t) (iblk m c 1 t) (iblk m c 2 t) (iblk m c 3 t) (iblk m c 4 t) (iblk m c 5 t) (iblk m c 6 t) (iblk m c 7 t) ((dats m 0 c).before 9 t d9) (S1v m c) (S2all m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [HS0]; · iexact HS0
  isplitl [HS1]
  · unfold owns; iexists g; isplitr; · ipureintro; exact hR
    iexact HS1
  iintro ⟨H0, H1, H2, H3, H4, H5, H6, H7, H8, H9, HS0, HS1⟩
  isplitl [HS0 HS1 Hg]
  · isplitl [HS0 HS1]
    · isplitl [HS0]; · iexact HS0
      unfold owns
      icases HS1 with ⟨%g', %hg', HS1⟩
      iexists g'; isplitr; · ipureintro; rw [hg']; exact s2P_all m c _
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply hy
  iexists d9; iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  · by_cases h1 : t.val < 25
    · exact sound_B m c t h0 h1
    · exact sound_C m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl, Phi_zero]
  unfold Pipeline.ΦA; rw [scopedRest0_eq]; simp only [owns_whole, Memref.view_whole, View.set_whole]
  iintro ⟨⟨HS0, ⟨%g, HS1⟩⟩, Hg⟩
  isplitl [HS0 HS1]
  · isplitl [HS0]; · iexact HS0
    iexists g; iexact HS1
  iexact Hg

/-- After the last point the invariant gives the scratch buffers back at some contents. -/
theorem hout (c : Dev nD) : (dats m 0 c).Φ (Fin.last cfg0.N) ⊢ Pipeline.ΦA spec0 c := by
  rw [show (dats m 0 c).Φ (Fin.last cfg0.N) = Phi m c cfg0.N from rfl, Phi_pos m c cfg0.N (by rw [N50]; decide)]
  unfold Pipeline.ΦA; rw [scopedRest0_eq]; simp only [owns_whole, Memref.view_whole, View.set_whole]
  iintro ⟨⟨HS0, ⟨%g, -, HS1⟩⟩, Hg⟩
  isplitl [HS0 HS1]
  · isplitl [HS0]; · iexists _; iexact HS0
    iexists g; iexact HS1
  iexact Hg

/-! ## The run and the frame -/

set_option backward.isDefEq.respectTransparency.types false in
/-- Every weakly fair execution of @main terminates, every array of the pipeline at what the write-backs of the proof
    data leave in it and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Hand

end
-- ==== Proof.KI.Sched.lean ====
/-
  The schedule of the fused two-layer graph-convolution kernel, decided once over its grid of 2 × 25 = 50 points.
  Point t is phase t / 25, row block t % 25.  Phase 0 walks the row blocks of the adjacency matrix upwards, phase 1
  downwards (block 49 - t).  The first hidden-layer product is formed at point 0 only; the hidden rows, the encoder
  output y and the rows of the second product are formed at points 0 … 24; the log-softmax of the second layer at
  points 25 … 49.  The y window sits on row block t in phase 0 and stays on block 24 through phase 1 (written back
  after points 0 … 23 and once more after point 49); the logits window sits on block 24 through phase 0 (never written
  back there) and on block 49 - t in phase 1 (written back after every point of it).
-/
import proofs.«160181_g86887188398703_cont_sun_m_546_21_alg».proof.Proof.Gen.KernelIdeal.Launch
import proofs.«160181_g86887188398703_cont_sun_m_546_21_alg».proof.Proof.Gen.KernelIdeal.Points

noncomputable section

namespace Cert.KernelIdeal.Hand

open Cert.KernelIdeal Cert.KernelIdeal.Gen
open Idealize.ShloMosaic

/-- The condition of the first conditional: phase 0 and row block 0. -/
abbrev condA (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point only. -/
theorem hcondA : ∀ t : Fin cfg0.N, condA (grid0.coords t) ↔ t.val = 0 :=
  (by decide +kernel : ∀ t : Fin grid0.N, condA (grid0.coords t) ↔ t.val = 0)
/-- Phase 0 is the points below 25. -/
theorem hcond2 : ∀ t : Fin cfg0.N, k0_cond2 (grid0.coords t) = 1#1 ↔ t.val < 25 :=
  (by decide +kernel : ∀ t : Fin grid0.N, k0_cond2 (grid0.coords t) = 1#1 ↔ t.val < 25)
/-- Phase 1 is the points from 25 on. -/
theorem hcond3 : ∀ t : Fin cfg0.N, k0_cond3 (grid0.coords t) = 1#1 ↔ 25 ≤ t.val :=
  (by decide +kernel : ∀ t : Fin grid0.N, k0_cond3 (grid0.coords t) = 1#1 ↔ 25 ≤ t.val)

/-- The inputs are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- The logits window is idle through phase 0, the y window through phase 1. -/
theorem idle8 : ∀ t : Fin cfg0.N, cfg0.idle 8 (grid0.coords t) = decide (t.val < 25) :=
  (by decide +kernel : ∀ t : Fin grid0.N, idle0 8 (grid0.coords t) = decide (t.val < 25))
theorem idle9 : ∀ t : Fin cfg0.N, cfg0.idle 9 (grid0.coords t) = decide (25 ≤ t.val) :=
  (by decide +kernel : ∀ t : Fin grid0.N, idle0 9 (grid0.coords t) = decide (25 ≤ t.val))

/-- The logits block is written back after every point of phase 1 and after none of phase 0. -/
theorem flush8 : ∀ t : Fin cfg0.N, (cfg0.win 8).flush t = decide (25 ≤ t.val) :=
  (by decide +kernel : ∀ t : Fin grid0.N, win0_8.flush t = decide (25 ≤ t.val))
/-- The y block is written back after points 0 … 23 and after the last point. -/
theorem flush9 : ∀ t : Fin cfg0.N, (cfg0.win 9).flush t = decide (t.val < 24 ∨ t.val = 49) :=
  (by decide +kernel : ∀ t : Fin grid0.N, win0_9.flush t = decide (t.val < 24 ∨ t.val = 49))
/-- Neither output is ever fetched. -/
theorem fetch8 : ∀ t : Fin cfg0.N, (cfg0.win 8).fetch t = false :=
  (by decide +kernel : ∀ t : Fin grid0.N, win0_8.fetch t = false)
theorem fetch9 : ∀ t : Fin cfg0.N, (cfg0.win 9).fetch t = false :=
  (by decide +kernel : ∀ t : Fin grid0.N, win0_9.fetch t = false)

/-- The row block of the adjacency matrix at a point: t upwards, then 49 - t downwards. -/
theorem idx1 : ∀ t : Fin cfg0.N, win0_1.index t = ![if t.val < 25 then t.val else 49 - t.val, 0] :=
  (by decide +kernel : ∀ t : Fin grid0.N, win0_1.index t = ![if t.val < 25 then t.val else 49 - t.val, 0])
/-- The logits window's row block. -/
theorem idx8 : ∀ t : Fin cfg0.N, win0_8.index t = ![if t.val < 25 then 24 else 49 - t.val, 0] :=
  (by decide +kernel : ∀ t : Fin grid0.N, win0_8.index t = ![if t.val < 25 then 24 else 49 - t.val, 0])
/-- The y window's row block. -/
theorem idx9 : ∀ t : Fin cfg0.N, win0_9.index t = ![if t.val < 25 then t.val else 24, 0] :=
  (by decide +kernel : ∀ t : Fin grid0.N, win0_9.index t = ![if t.val < 25 then t.val else 24, 0])
/-- The rows of the second product stored at a point of phase 0 start at 400 t. -/
theorem off1 : ∀ t : Fin cfg0.N, t.val < 25 → k0_off1 (grid0.coords t) = ![400 * t.val, 0] :=
  (by decide +kernel : ∀ t : Fin grid0.N, t.val < 25 → k0_off1 (grid0.coords t) = ![400 * t.val, 0])

theorem N50 : cfg0.N = 50 := N_0

end Cert.KernelIdeal.Hand

end
-- ==== Proof.KI.Data.lean ====
/-
  What the fused graph-convolution kernel leaves, point by point, as functions of the blocks the pipeline hands it,
  and the pipeline's proof data over them.

  * S1v: the first product x · W1, formed once at point 0 and kept in the first scratch buffer from then on.
  * Yv t, S2v t (t < 25): the 400 rows of the encoder output y and of the second product h · W2 that point t forms from
    row block t of the adjacency matrix, h = relu(adj_t · S1 + b1) being that block's hidden rows.
  * S2all: the second product whole, row block j of it being S2v j — what the second scratch buffer holds once phase 0
    has stored all 25 blocks.
  * Lv t (t ≥ 25): the 400 rows of the log-softmax of adj_t · S2 + b2 that point t forms.

  The y window stays on row block 24 after phase 0 and is written back once more after the last point, at what point
  24 left there: its contents after a point of phase 1 are those after point 24.
-/
import proofs.«160181_g86887188398703_cont_sun_m_546_21_alg».proof.Proof.KI.Sched
import proofs.«160181_g86887188398703_cont_sun_m_546_21_alg».proof.Proof.Gen.KernelIdeal.Frame
import proofs.«160181_g86887188398703_cont_sun_m_546_21_alg».proof.Proof.Gen.KernelIdeal.Skeleton
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point. -/
abbrev p0 : Fin cfg0.N := ⟨0, by decide⟩
/-- The last point of phase 0 at or before t. -/
def tmin (t : Fin cfg0.N) : Fin cfg0.N := ⟨min t.val 24, lt_of_le_of_lt (Nat.min_le_right _ _) (by decide)⟩

theorem tmin_lt (t : Fin cfg0.N) (h : t.val < 25) : tmin t = t := Fin.ext (by unfold tmin; simp only; omega)
theorem tmin_ge (t : Fin cfg0.N) (h : 25 ≤ t.val) : (tmin t).val = 24 := by unfold tmin; simp only; omega

/-- The scratch operands as memrefs. -/
abbrev scM0 : Memref sig .tc .vmem S10000x128 .bf16 := Memref.whole cc0_scratch0
abbrev scM1 : Memref sig .tc .vmem S10000x64 .bf16 := Memref.whole cc0_scratch1

/-- x · W1, from the blocks point 0 is handed. -/
def S1v (c : Dev nD) : Vec F S10000x128 .bf16 := k0_pay1 (iblk m c 0 p0) (iblk m c 2 p0)
/-- The rows of y point t forms. -/
def Yv (c : Dev nD) (t : Fin cfg0.N) : Vec F S400x16 .f32 :=
  k0_pay3 (iblk m c 1 t) (S1v m c) (iblk m c 3 t) (iblk m c 6 t) (iblk m c 7 t)
/-- The rows of h · W2 point t forms. -/
def S2v (c : Dev nD) (t : Fin cfg0.N) : Vec F S400x64 .bf16 :=
  k0_pay4 (iblk m c 1 t) (S1v m c) (iblk m c 3 t) (iblk m c 4 t)
/-- h · W2 whole: row r is row r % 400 of what point r / 400 formed. -/
def S2all (c : Dev nD) : Vec F S10000x64 .bf16 := fun idx =>
  S2v m c ⟨(idx 0).val / 400, by have h : (idx 0).val < 10000 := (idx 0).isLt; have : cfg0.N = 50 := N_0; omega⟩
    (ValueIdx.ix2 (⟨(idx 0).val % 400, Nat.mod_lt _ (by decide)⟩ : Fin 400) (⟨(idx 1).val, (idx 1).isLt⟩ : Fin 64))
/-- The rows of the log-softmax point t forms. -/
def Lv (c : Dev nD) (t : Fin cfg0.N) : Vec F S400x64 .f32 :=
  k0_pay5 (iblk m c 1 t) (S2all m c) (iblk m c 5 t)

/-- The rows of the second scratch buffer point j of phase 0 stores. -/
abbrev rectS2 (j : Fin cfg0.N) (hj : j.val < 25) : Rect S10000x64 :=
  Rect.unit (s := S10000x64) (k0_off1 (grid0.coords j)) S400x64.size (k0_off1_inb (grid0.coords j) ((hcond2 j).mpr hj))

/-- Contents R of the second scratch buffer hold the row blocks of h · W2 stored before point n. -/
def s2P (c : Dev nD) (n : ℕ) (R : Vec F S10000x64 .bf16) : Prop :=
  ∀ (j : Fin cfg0.N) (hj : j.val < 25), j.val < n → ∀ y : S400x64.Idx, R ((rectS2 j hj).emb y) = S2v m c j y

/-- The invariant between points: before the first, both scratch buffers at anything; after it the first scratch at
    x · W1 and the second holding the row blocks of h · W2 stored so far. -/
def Phi (c : Dev nD) : ℕ → sProp 𝕄
  | 0 => iprop(iprop((∃ d, owns (c : Thread nD τ) scM0 fullShare d)
      ∗ (∃ g, scM1.view.loc (c : Thread nD τ) ↦[scM1.view.set]{fullShare} g)) ∗ (∃ r, prngReg c r))
  | n + 1 => iprop(iprop(owns (c : Thread nD τ) scM0 fullShare (S1v m c)
      ∗ (∃ g, ⌜s2P m c (n + 1) (scM1.view.read (Elt F) g)⌝ ∗ scM1.view.loc (c : Thread nD τ) ↦[scM1.view.set]{fullShare} g))
      ∗ (∃ r, prngReg c r))

theorem Phi_zero (c : Dev nD) : Phi m c 0 = iprop(iprop((∃ d, owns (c : Thread nD τ) scM0 fullShare d)
      ∗ (∃ g, scM1.view.loc (c : Thread nD τ) ↦[scM1.view.set]{fullShare} g)) ∗ (∃ r, prngReg c r)) := rfl
theorem Phi_pos (c : Dev nD) (n : ℕ) (hn : n ≠ 0) :
    Phi m c n = iprop(iprop(owns (c : Thread nD τ) scM0 fullShare (S1v m c)
      ∗ (∃ g, ⌜s2P m c n (scM1.view.read (Elt F) g)⌝ ∗ scM1.view.loc (c : Thread nD τ) ↦[scM1.view.set]{fullShare} g))
      ∗ (∃ r, prngReg c r)) := by
  cases n with
  | zero => exact absurd rfl hn
  | succ n => rfl

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Lv m c t
    | ⟨9, _⟩ => Yv m c (tmin t)
  Φ t := Phi m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = Lv m c t := by dsimp only [dats]
theorem after9 (c : Dev nD) (t : Fin cfg0.N) : (dats m 0 c).after 9 t = Yv m c (tmin t) := by dsimp only [dats]

theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

end Cert.KernelIdeal.Hand

end
-- ==== Proof.KI.S2Inv.lean ====
/-
  The second scratch buffer through phase 0.  Point t < 25 stores the 400 rows S2v t of h · W2 at rows 400 t … 400 t + 399
  and touches no other row; so after point t the buffer holds the row blocks 0 … t, and after point 24 it holds h · W2
  whole (S2all): the 25 row blocks are disjoint and cover the 10000 rows.
-/
import proofs.«160181_g86887188398703_cont_sun_m_546_21_alg».proof.Proof.KI.Data
import Idealize.ShloMosaic.Lib.Pipeline.FrameBody
import Idealize.ShloMosaic.Lib.WritesUnit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Row block j starts at row 400 j: position y of it is row 400 j + y 0 of the buffer. -/
private theorem rectS2_row (j : Fin cfg0.N) (hj : j.val < 25) (y : S400x64.Idx) :
    ((rectS2 j hj).emb y 0).val = 400 * j.val + (y 0).val := by
  have e0 : k0_off1 (grid0.coords j) 0 = 400 * j.val := by rw [off1 j hj]; rfl
  show k0_off1 (grid0.coords j) 0 + 1 * (y 0).val = _
  rw [e0, Nat.one_mul]

/-- Row block j takes every column: position y of it is column y 1 of the buffer. -/
private theorem rectS2_col (j : Fin cfg0.N) (hj : j.val < 25) (y : S400x64.Idx) :
    ((rectS2 j hj).emb y 1).val = (y 1).val := by
  have e1 : k0_off1 (grid0.coords j) 1 = 0 := by rw [off1 j hj]; rfl
  show k0_off1 (grid0.coords j) 1 + 1 * (y 1).val = _
  rw [e1, Nat.one_mul, Nat.zero_add]

/-- Row 400 a + b with b < 400 lies in row block a, at position b. -/
private theorem row_div (a b r : ℕ) (hb : b < 400) (hr : r = 400 * a + b) : r / 400 = a := by omega
private theorem row_mod (a b r : ℕ) (hb : b < 400) (hr : r = 400 * a + b) : r % 400 = b := by omega

/-- Before the first point nothing is asked of the buffer. -/
theorem s2P_zero (c : Dev nD) (R : Vec F S10000x64 .bf16) : s2P m c 0 R := fun j hj h => absurd h (Nat.not_lt_zero _)

/-- Storing point t's rows over contents that hold the blocks before t gives contents that hold the blocks up to t. -/
theorem s2P_step (c : Dev nD) (t : Fin cfg0.N) (ht : t.val < 25) (g : Buf (Elt F) (scM1.view.loc (c : Thread nD τ)))
    (h : s2P m c t.val (scM1.view.read (Elt F) g)) :
    s2P m c (t.val + 1) (scM1.view.read (Elt F) (scM1.view.writes (Elt F) g [⟨rectS2 t ht, S2v m c t⟩])) := by
  intro j hj hjt y
  by_cases hjt' : j = t
  · -- the block just stored reads the payload stored
    subst hjt'
    exact View.read_writes_cons_emb scM1.view g (rectS2 j ht) (S2v m c j) [] y
  · -- an earlier block lies wholly above the rows just stored, and keeps what it held
    have hlt : j.val < t.val := by
      have hne : j.val ≠ t.val := fun e => hjt' (Fin.ext e)
      omega
    have hy0 : (y 0).val < 400 := (y 0).isLt
    have hr := rectS2_row j hj y
    have hout : ((rectS2 j hj).emb y (0 : Fin 2)).val < 400 * t.val
        ∨ 400 * t.val + 400 ≤ ((rectS2 j hj).emb y (0 : Fin 2)).val := by
      left
      show ((rectS2 j hj).emb y 0).val < 400 * t.val
      rw [hr]; omega
    refine (View.read_writes_cons_rows_of_not_mem scM1.view g _ (S2v m c t) [] ((rectS2 j hj).emb y)
      (off1 t ht) rfl hout).trans ?_
    rw [View.writes_nil]
    exact h j hj hlt y

/-- Contents that hold all 25 row blocks are h · W2 whole. -/
theorem s2P_full (c : Dev nD) (n : ℕ) (hn : 25 ≤ n) (R : Vec F S10000x64 .bf16) (h : s2P m c n R) : R = S2all m c := by
  funext idx
  have h0 : (idx 0).val < 10000 := (idx 0).isLt
  have hN : cfg0.N = 50 := N50
  have hjN : (idx 0).val / 400 < cfg0.N := by omega
  have hj : (⟨(idx 0).val / 400, hjN⟩ : Fin cfg0.N).val < 25 := by
    show (idx 0).val / 400 < 25
    omega
  have hn' : (⟨(idx 0).val / 400, hjN⟩ : Fin cfg0.N).val < n := by
    show (idx 0).val / 400 < n
    omega
  -- every index is position (row % 400, column) of row block row / 400
  have hidx : idx = (rectS2 ⟨(idx 0).val / 400, hjN⟩ hj).emb
      (ValueIdx.ix2 (⟨(idx 0).val % 400, Nat.mod_lt _ (by decide)⟩ : Fin 400) (⟨(idx 1).val, (idx 1).isLt⟩ : Fin 64)) := by
    funext a
    apply Fin.ext
    match a with
    | ⟨0, _⟩ =>
      refine Eq.trans ?_ (rectS2_row _ hj _).symm
      show (idx 0).val = 400 * ((idx 0).val / 400) + (idx 0).val % 400
      omega
    | ⟨1, _⟩ =>
      refine Eq.trans ?_ (rectS2_col _ hj _).symm
      rfl
  exact (congrArg R hidx).trans (h _ hj hn' _)

/-- h · W2 whole holds every row block. -/
theorem s2P_all (c : Dev nD) (n : ℕ) : s2P m c n (S2all m c) := by
  intro j hj _ y
  have hy0 : (y 0).val < 400 := (y 0).isLt
  have hr := rectS2_row j hj y
  have hc := rectS2_col j hj y
  have key : ∀ (j' : Fin cfg0.N) (y' : S400x64.Idx), j' = j → y' = y → S2v m c j' y' = S2v m c j y := by
    intro j' y' e1 e2
    rw [e1, e2]
  unfold S2all
  apply key
  · apply Fin.ext
    show ((rectS2 j hj).emb y 0).val / 400 = j.val
    exact row_div _ _ _ hy0 hr
  · funext a
    apply Fin.ext
    match a with
    | ⟨0, _⟩ =>
      show ((rectS2 j hj).emb y 0).val % 400 = (y 0).val
      exact row_mod _ _ _ hy0 hr
    | ⟨1, _⟩ => exact hc

end Cert.KernelIdeal.Hand

end
-- ==== Proof.KI.RunA.lean ====
/-
  The kernel body at the first point (phase 0, row block 0): it forms x · W1 and stores it whole into the first scratch
  buffer, then from it the hidden rows of row block 0, their encoder output (stored whole into the y buffer) and their
  product with W2 (stored into rows 0 … 399 of the second scratch buffer).  The logits buffer is not touched.
-/
import proofs.«160181_g86887188398703_cont_sun_m_546_21_alg».proof.Proof.KI.Sched
import proofs.«160181_g86887188398703_cont_sun_m_546_21_alg».proof.Proof.Gen.KernelIdeal.Skeleton
import proofs.«160181_g86887188398703_cont_sun_m_546_21_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer rectangle are zero. -/
theorem runA_zero : (![0, 0] : Fin 2 → ℕ) = fun _ => 0 := funext fun a => by fin_cases a <;> rfl

/-- A load of a whole buffer through the whole-buffer rectangle reads what the buffer reads as. -/
theorem runA_load {S : Shape} {e : EltTy} (m : Memref sig .tc .vmem S e) (hm : m.IsWhole) (X : Vec F S e)
    {off : Fin S.rank → ℕ} (h : off = fun _ => 0) (inb : ∀ a, off a + S.size a ≤ S.size a) :
    View.readAt (Elt F) m.view (Rect.unit off S.size inb).toLoadRect (hm.unread X) = X := by
  rw [View.readAt_eq_ld, Memref.IsWhole.read_unread, View.ld_unit_zero h]

/-- One store through the whole-buffer rectangle, over any prior contents, reads as its payload. -/
theorem runA_stored {S : Shape} {e : EltTy} (m : Memref sig .tc .vmem S e) (f : m.view.ty.Contents (Elt F))
    {off : Fin S.rank → ℕ} (h : off = fun _ => 0) (inb : ∀ a, off a + S.size a ≤ S.size a) (w : Vec F S e) :
    m.view.read (Elt F) (m.view.writes (Elt F) f [(⟨Rect.unit off S.size inb, w⟩ : View.Piece (Elt F) S e)]) = w := by
  rw [View.read_writes_eq_canon _ _ _ (fun y => ⟨_, List.mem_singleton_self _, View.mem_set_unit_zero h inb y⟩),
    View.canon_unit_zero h]

set_option maxHeartbeats 1000000 in
/-- The body at a point where all of phase 0's work is done, the first product included. -/
theorem runA (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S400x64 .f32) (harg10 : arg10.IsWhole) (arg11 : Memref sig .tc .vmem S400x16 .f32) (harg11 : arg11.IsWhole) (arg12 : Memref sig .tc .vmem S10000x128 .bf16) (harg12 : arg12.IsWhole) (arg13 : Memref sig .tc .vmem S10000x64 .bf16) (harg13 : arg13.IsWhole)
    (hc0 : condA i) (hc1 : k0_cond2 i = 1#1) (hc2 : ¬ k0_cond3 i = 1#1)
    (x0 : Vec F S10000x128 .f32) (x1 : Vec F S400x10000 .f32) (x2 : Vec F S128x128 .f32) (x3 : Vec F S1x128 .f32) (x4 : Vec F S128x64 .f32) (x5 : Vec F S1x64 .f32) (x6 : Vec F S128x16 .f32) (x7 : Vec F S1x16 .f32) (d8 : Vec F S400x64 .f32) (g : Buf (Elt F) (arg13.view.loc (c : Thread nD τ)))
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ (∃ d, owns (c : Thread nD τ) arg11 fullShare d) ∗ (∃ d, owns (c : Thread nD τ) arg12 fullShare d) ∗ (arg13.view.loc (c : Thread nD τ) ↦[arg13.view.set]{fullShare} g)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare (k0_pay3 x1 (k0_pay1 x0 x2) x3 x6 x7) ∗ owns (c : Thread nD τ) arg12 fullShare (k0_pay1 x0 x2)
            ∗ (arg13.view.loc (c : Thread nD τ) ↦[arg13.view.set]{fullShare} arg13.view.writes (Elt F) g [⟨Rect.unit (s := S10000x64) (k0_off1 i) S400x64.size (k0_off1_inb i hc1), k0_pay4 x1 (k0_pay1 x0 x2) x3 x4⟩])) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, HS1, Hk⟩
  obtain rfl := harg2.eq_unread hf0
  obtain rfl := harg3.eq_unread hf1
  obtain rfl := harg4.eq_unread hf2
  obtain rfl := harg5.eq_unread hf3
  obtain rfl := harg6.eq_unread hf4
  obtain rfl := harg7.eq_unread hf5
  obtain rfl := harg8.eq_unread hf6
  obtain rfl := harg9.eq_unread hf7
  obtain rfl := harg10.eq_unread hf8
  sl_exec (disch := first | exact hc0 | exact hc1 | exact hc2)
  sl_step
  iapply Hk
  sl_unfold_run_names
  rewrite [runA_load arg2 harg2 x0 runA_zero, runA_load arg4 harg4 x2 runA_zero, runA_load arg3 harg3 x1 runA_zero,
    runA_load arg5 harg5 x3 runA_zero, runA_load arg6 harg6 x4 runA_zero, runA_load arg8 harg8 x6 runA_zero,
    runA_load arg9 harg9 x7 runA_zero, View.readCov_unit_zero arg12.view runA_zero]
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    exact runA_stored arg11 f9 runA_zero _ _
  isplitl [HS0]
  · iexists _; isplitr
    swap; · iexact HS0
    ipureintro
    exact runA_stored arg12 fs0 runA_zero _ _
  iexact HS1

end Cert.KernelIdeal.Hand

end
-- ==== Proof.KI.RunB.lean ====
/-
  The kernel body at a later point of phase 0 (row block i₁ > 0): from the first scratch buffer, which holds x · W1, it
  forms the hidden rows of the row block, their encoder output (stored whole into the y buffer) and their product with
  W2 (stored into rows 400 i₁ … 400 i₁ + 399 of the second scratch buffer).  The logits buffer and the first scratch
  buffer are not written.
-/
import proofs.«160181_g86887188398703_cont_sun_m_546_21_alg».proof.Proof.KI.Sched
import proofs.«160181_g86887188398703_cont_sun_m_546_21_alg».proof.Proof.Gen.KernelIdeal.Skeleton
import proofs.«160181_g86887188398703_cont_sun_m_546_21_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle's offsets are zero. -/
theorem hzB : (![0, 0] : Fin 2 → ℕ) = fun _ => 0 := funext fun a => by fin_cases a <;> rfl

/-- A load through the whole-buffer rectangle of a whole memref holding X reads X. -/
theorem readAt_wholeB {S : Shape} {e : EltTy} (m : Memref sig .tc .vmem S e) (hm : m.IsWhole) {off : Fin S.rank → ℕ}
    (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread, View.ld_unit_zero h]

/-- One store through the whole-buffer rectangle leaves a buffer that reads as its payload. -/
theorem read_store_wholeB {S : Shape} {e : EltTy} (m : Memref sig .tc .vmem S e) (f : m.view.ty.Contents (Elt F)) {off : Fin S.rank → ℕ}
    (h : off = fun _ => 0) (inb : ∀ a, off a + S.size a ≤ S.size a) (w : S.Idx → Elt F e) :
    m.view.read (Elt F) (m.view.writes (Elt F) f [⟨Rect.unit off S.size inb, w⟩]) = w := by
  rw [View.read_writes_eq_canon _ _ _ (fun y => ⟨_, List.mem_singleton_self _, View.mem_set_unit_zero h inb y⟩),
    View.canon_unit_zero h]

set_option maxHeartbeats 1000000 in
/-- The body at a point of phase 0 other than the first. -/
theorem runB (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S400x64 .f32) (harg10 : arg10.IsWhole) (arg11 : Memref sig .tc .vmem S400x16 .f32) (harg11 : arg11.IsWhole) (arg12 : Memref sig .tc .vmem S10000x128 .bf16) (harg12 : arg12.IsWhole) (arg13 : Memref sig .tc .vmem S10000x64 .bf16) (harg13 : arg13.IsWhole)
    (hc0 : ¬ condA i) (hc1 : k0_cond2 i = 1#1) (hc2 : ¬ k0_cond3 i = 1#1)
    (x0 : Vec F S10000x128 .f32) (x1 : Vec F S400x10000 .f32) (x2 : Vec F S128x128 .f32) (x3 : Vec F S1x128 .f32) (x4 : Vec F S128x64 .f32) (x5 : Vec F S1x64 .f32) (x6 : Vec F S128x16 .f32) (x7 : Vec F S1x16 .f32) (d8 : Vec F S400x64 .f32) (s1 : Vec F S10000x128 .bf16) (g : Buf (Elt F) (arg13.view.loc (c : Thread nD τ)))
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ (∃ d, owns (c : Thread nD τ) arg11 fullShare d) ∗ owns (c : Thread nD τ) arg12 fullShare s1 ∗ (arg13.view.loc (c : Thread nD τ) ↦[arg13.view.set]{fullShare} g)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare d8 ∗ owns (c : Thread nD τ) arg11 fullShare (k0_pay3 x1 s1 x3 x6 x7) ∗ owns (c : Thread nD τ) arg12 fullShare s1
            ∗ (arg13.view.loc (c : Thread nD τ) ↦[arg13.view.set]{fullShare} arg13.view.writes (Elt F) g [⟨Rect.unit (s := S10000x64) (k0_off1 i) S400x64.size (k0_off1_inb i hc1), k0_pay4 x1 s1 x3 x4⟩])) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hfs0, HS0⟩, HS1, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg12.eq_unread hfs0
  sl_exec (disch := first | exact hc0 | exact hc1 | exact hc2)
  sl_step
  iapply Hk
  simp only [readAt_wholeB (S := S400x10000) _ _ hzB, readAt_wholeB (S := S10000x128) _ _ hzB, readAt_wholeB (S := S1x128) _ _ hzB, readAt_wholeB (S := S128x16) _ _ hzB, readAt_wholeB (S := S1x16) _ _ hzB, readAt_wholeB (S := S128x64) _ _ hzB]
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro; exact read_store_wholeB (S := S400x16) _ _ hzB _ _
  isplitl [HS0]
  · iexists _; isplitr; · ipureintro; exact harg12.read_unread _
    iexact HS0
  iexact HS1

end Cert.KernelIdeal.Hand

end
-- ==== Proof.KI.RunC.lean ====
/-
  The kernel body at a point of phase 1: from the second scratch buffer, which holds h · W2 whole, and the point's row
  block of the adjacency matrix it forms the block's logits, subtracts each row's maximum, and stores the rows less the
  logarithm of their exponentials' sum whole into the logits buffer.  The y buffer and both scratch buffers are not
  written.
-/
import proofs.«160181_g86887188398703_cont_sun_m_546_21_alg».proof.Proof.KI.Sched
import proofs.«160181_g86887188398703_cont_sun_m_546_21_alg».proof.Proof.Gen.KernelIdeal.Skeleton
import proofs.«160181_g86887188398703_cont_sun_m_546_21_alg».proof.Proof.Gen.KernelIdeal.Launch
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle's offsets are zero. -/
theorem offC_zero : (![0, 0] : Fin 2 → ℕ) = fun _ => 0 := funext fun a => by fin_cases a <;> rfl

set_option maxHeartbeats 1000000 in
/-- The body at a point of phase 1. -/
theorem runC (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S400x64 .f32) (harg10 : arg10.IsWhole) (arg11 : Memref sig .tc .vmem S400x16 .f32) (harg11 : arg11.IsWhole) (arg12 : Memref sig .tc .vmem S10000x128 .bf16) (harg12 : arg12.IsWhole) (arg13 : Memref sig .tc .vmem S10000x64 .bf16) (harg13 : arg13.IsWhole)
    (hc0 : ¬ condA i) (hc1 : ¬ k0_cond2 i = 1#1) (hc2 : k0_cond3 i = 1#1)
    (x0 : Vec F S10000x128 .f32) (x1 : Vec F S400x10000 .f32) (x2 : Vec F S128x128 .f32) (x3 : Vec F S1x128 .f32) (x4 : Vec F S128x64 .f32) (x5 : Vec F S1x64 .f32) (x6 : Vec F S128x16 .f32) (x7 : Vec F S1x16 .f32) (d9 : Vec F S400x16 .f32) (s1 : Vec F S10000x128 .bf16) (s2 : Vec F S10000x64 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare d9 ∗ owns (c : Thread nD τ) arg12 fullShare s1 ∗ owns (c : Thread nD τ) arg13 fullShare s2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (k0_pay5 x1 s2 x5) ∗ owns (c : Thread nD τ) arg11 fullShare d9 ∗ owns (c : Thread nD τ) arg12 fullShare s1 ∗ owns (c : Thread nD τ) arg13 fullShare s2) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11 arg12 harg12 arg13 harg13) K := by
  -- the printed body is its skeleton; each buffer's ownership is opened at its raw contents
  simp only [cc0__gcn_body_eq_skeleton]; unfold cc0__gcn_body_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, ⟨%f13, %hf13, H13⟩, Hk⟩
  -- a whole buffer's raw contents are determined by what it reads as
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  obtain rfl := harg11.eq_unread hf11
  obtain rfl := harg12.eq_unread hf12
  obtain rfl := harg13.eq_unread hf13
  -- the first two conditionals are skipped, the third runs: three loads, the unused load of the logits buffer, one store
  sl_exec (disch := first | exact hc0 | exact hc1 | exact hc2)
  sl_step
  iapply Hk
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    · ipureintro; exact harg7.read_unread _
    iexact H7
  isplitl [H8]
  · iexists _; isplitr
    · ipureintro; exact harg8.read_unread _
    iexact H8
  isplitl [H9]
  · iexists _; isplitr
    · ipureintro; exact harg9.read_unread _
    iexact H9
  -- the one store covers the logits buffer, so it reads as the payload; each load through the whole rectangle reads its buffer's value
  isplitl [H10]
  · iexists _; isplitr
    swap; · iexact H10
    ipureintro
    rw [View.read_writes_eq_canon _ _ _ (fun y => ⟨_, List.mem_singleton_self _, View.mem_set_unit_zero offC_zero inb_S400x64_S400x64_0_0 y⟩),
      View.canon_unit_zero offC_zero]
    rw [View.readAt_eq_ld, View.readAt_eq_ld, View.readAt_eq_ld, harg3.read_unread, harg13.read_unread, harg7.read_unread,
      View.ld_unit_zero offC_zero, View.ld_unit_zero offC_zero, View.ld_unit_zero offC_zero]
  isplitl [H11]
  · iexists _; isplitr
    · ipureintro; exact harg11.read_unread _
    iexact H11
  isplitl [H12]
  · iexists _; isplitr
    · ipureintro; exact harg12.read_unread _
    iexact H12
  iexists _; isplitr
  · ipureintro; exact harg13.read_unread _
  iexact H13

end Cert.KernelIdeal.Hand

end
-- ==== Proof.KI.Body.lean ====
/-
  The body obligation of the fused graph-convolution kernel and its frame run.

  At every point the pipeline hands the body each input window's block (the inputs are never idle and the body leaves
  them as found), the logits window's buffer and the y window's buffer, and the invariant: before the first point both
  scratch buffers at anything; afterwards the first at x · W1 and the second holding the row blocks of h · W2 stored so
  far.  Four kinds of point:
  * point 0 forms x · W1, then does phase 0's work for row block 0;
  * points 1 … 24 do phase 0's work for their row block: y's rows are left in the y buffer, the rows of h · W2 go into
    the second scratch buffer, the logits buffer is handed back as found;
  * points 25 … 48 form the log-softmax rows of row block 49 - t from the second scratch buffer, which by then holds
    h · W2 whole; the y buffer is handed back as found — it still holds what point 24 left, the window not having moved;
  * point 49 does the same, and there the y window is written back once more: what it writes is what point 24 left.
-/
import proofs.«160181_g86887188398703_cont_sun_m_546_21_alg».proof.Proof.KI.Data
import proofs.«160181_g86887188398703_cont_sun_m_546_21_alg».proof.Proof.KI.S2Inv
import proofs.«160181_g86887188398703_cont_sun_m_546_21_alg».proof.Proof.KI.RunA
import proofs.«160181_g86887188398703_cont_sun_m_546_21_alg».proof.Proof.KI.RunB
import proofs.«160181_g86887188398703_cont_sun_m_546_21_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the windows' buffers hold when the body runs, and what it must leave -/

theorem leaves0 (c : Dev nD) (t : Fin cfg0.N) :
    (dats m 0 c).leavesExact 0 t = owns (c : Thread nD τ) (st0_0 t) fullShare (iblk m c 0 t) := by
  unfold Dat.leavesExact; rw [live0 t, after0]
theorem leaves1 (c : Dev nD) (t : Fin cfg0.N) :
    (dats m 0 c).leavesExact 1 t = owns (c : Thread nD τ) (st0_1 t) fullShare (iblk m c 1 t) := by
  unfold Dat.leavesExact; rw [live1 t, after1]
theorem leaves2 (c : Dev nD) (t : Fin cfg0.N) :
    (dats m 0 c).leavesExact 2 t = owns (c : Thread nD τ) (st0_2 t) fullShare (iblk m c 2 t) := by
  unfold Dat.leavesExact; rw [live2 t, after2]
theorem leaves3 (c : Dev nD) (t : Fin cfg0.N) :
    (dats m 0 c).leavesExact 3 t = owns (c : Thread nD τ) (st0_3 t) fullShare (iblk m c 3 t) := by
  unfold Dat.leavesExact; rw [live3 t, after3]
theorem leaves4 (c : Dev nD) (t : Fin cfg0.N) :
    (dats m 0 c).leavesExact 4 t = owns (c : Thread nD τ) (st0_4 t) fullShare (iblk m c 4 t) := by
  unfold Dat.leavesExact; rw [live4 t, after4]
theorem leaves5 (c : Dev nD) (t : Fin cfg0.N) :
    (dats m 0 c).leavesExact 5 t = owns (c : Thread nD τ) (st0_5 t) fullShare (iblk m c 5 t) := by
  unfold Dat.leavesExact; rw [live5 t, after5]
theorem leaves6 (c : Dev nD) (t : Fin cfg0.N) :
    (dats m 0 c).leavesExact 6 t = owns (c : Thread nD τ) (st0_6 t) fullShare (iblk m c 6 t) := by
  unfold Dat.leavesExact; rw [live6 t, after6]
theorem leaves7 (c : Dev nD) (t : Fin cfg0.N) :
    (dats m 0 c).leavesExact 7 t = owns (c : Thread nD τ) (st0_7 t) fullShare (iblk m c 7 t) := by
  unfold Dat.leavesExact; rw [live7 t, after7]

/-- Through phase 0 the logits window is idle and not written back: its buffer is handed back as found. -/
theorem leaves8_ph0 (c : Dev nD) (t : Fin cfg0.N) (h : t.val < 25) :
    (dats m 0 c).leavesExact 8 t = iprop(∃ d, owns (c : Thread nD τ) (st0_8 t) fullShare ((dats m 0 c).before 8 t d)) :=
  (dats m 0 c).leavesExact_idle 8 t (by rw [idle8]; exact decide_eq_true h) (by rw [flush8]; exact decide_eq_false (by omega))
/-- Through phase 1 it is live: its buffer holds the point's log-softmax rows. -/
theorem leaves8_ph1 (c : Dev nD) (t : Fin cfg0.N) (h : 25 ≤ t.val) :
    (dats m 0 c).leavesExact 8 t = owns (c : Thread nD τ) (st0_8 t) fullShare (Lv m c t) := by
  unfold Dat.leavesExact; rw [idle8 t, decide_eq_false (by omega : ¬ t.val < 25), after8]
/-- Through phase 0 the y window is live: its buffer holds the point's rows of y. -/
theorem leaves9_ph0 (c : Dev nD) (t : Fin cfg0.N) (h : t.val < 25) :
    (dats m 0 c).leavesExact 9 t = owns (c : Thread nD τ) (st0_9 t) fullShare (Yv m c t) := by
  unfold Dat.leavesExact; rw [idle9 t, decide_eq_false (by omega : ¬ 25 ≤ t.val), after9, tmin_lt t h]
/-- Through phase 1 but for the last point it is idle and not written back. -/
theorem leaves9_ph1 (c : Dev nD) (t : Fin cfg0.N) (h : 25 ≤ t.val) (h' : t.val ≠ 49) :
    (dats m 0 c).leavesExact 9 t = iprop(∃ d, owns (c : Thread nD τ) (st0_9 t) fullShare ((dats m 0 c).before 9 t d)) :=
  (dats m 0 c).leavesExact_idle 9 t (by rw [idle9]; exact decide_eq_true h) (by rw [flush9]; exact decide_eq_false (by omega))
/-- At the last point it is idle and written back: the buffer must hold what the proof data names. -/
theorem leaves9_last (c : Dev nD) (t : Fin cfg0.N) (h' : t.val = 49) :
    (dats m 0 c).leavesExact 9 t = owns (c : Thread nD τ) (st0_9 t) fullShare (Yv m c (tmin t)) := by
  unfold Dat.leavesExact
  rw [idle9 t, decide_eq_true (by omega : 25 ≤ t.val), flush9 t, decide_eq_true (by omega : t.val < 24 ∨ t.val = 49), after9]

/-- Through phase 1 the y window's buffer still holds what point 24 left: the window does not move after point 24, is
    not written back before the last point, and no point of phase 1 stores into it. -/
theorem before9_ph1 (c : Dev nD) : ∀ (n : ℕ) (t : Fin cfg0.N), t.val = n → 25 ≤ n → ∀ d,
    (dats m 0 c).before 9 t d = Yv m c (tmin t) := by
  intro n
  induction n with
  | zero => intro t _ h; omega
  | succ n ih =>
    intro t ht h d
    have hN : t.val < 50 := lt_of_lt_of_eq t.isLt N50
    have hpos : t.val ≠ 0 := by omega
    rw [(dats m 0 c).before_of_pos 9 t hpos (fetch9 t) d]
    have hfl : (cfg0.win 9).flush ⟨t.val - 1, Nat.lt_of_le_of_lt (Nat.sub_le _ _) t.isLt⟩ = false := by
      rw [flush9]; exact decide_eq_false (by simp only; omega)
    rw [hfl, if_neg Bool.false_ne_true]
    unfold Dat.left
    by_cases h25 : n = 24
    · -- the point before is point 24, the last of phase 0: live, so the buffer holds what it left
      have hid : cfg0.idle 9 (cfg0.grid.coords ⟨t.val - 1, Nat.lt_of_le_of_lt (Nat.sub_le _ _) t.isLt⟩) = false := by
        rw [idle9]; exact decide_eq_false (by simp only; omega)
      rw [hid]
      show (dats m 0 c).after 9 ⟨t.val - 1, _⟩ = _
      rw [after9]
      exact congrArg (Yv m c) (Fin.ext (by unfold tmin; simp only; omega))
    · -- the point before is of phase 1: idle, so the buffer holds what that point found
      have hid : cfg0.idle 9 (cfg0.grid.coords ⟨t.val - 1, Nat.lt_of_le_of_lt (Nat.sub_le _ _) t.isLt⟩) = true := by
        rw [idle9]; exact decide_eq_true (by simp only; omega)
      rw [hid]
      show (dats m 0 c).before 9 ⟨t.val - 1, _⟩ d = _
      rw [ih ⟨t.val - 1, Nat.lt_of_le_of_lt (Nat.sub_le _ _) t.isLt⟩ (by simp only; omega) (by omega) d]
      exact congrArg (Yv m c) (Fin.ext (by unfold tmin; simp only; omega))

/-! ## The body obligation, at a generic point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The first point. -/
theorem sound_A (c : Dev nD) (t : Fin cfg0.N) (h0 : t.val = 0) :
    bodyPre m c t ⊢ wp frame (wpE (defs₀ (F := F)) Variants.none c none) Set.univ (bodyAt0 t) (fun _ => bodyPost m c t) := by
  obtain rfl : t = p0 := Fin.ext h0
  unfold bodyPre bodyPost bodyAt0
  simp only [before0, before1, before2, before3, before4, before5, before6, before7]
  rw [show (dats m 0 c).owesAt () (p0 : Fin cfg0.N).succ = (dats m 0 c).owesAt () (p0 : Fin cfg0.N).castSucc from rfl]
  rw [Phi_castSucc, Phi_succ, Phi_zero, Phi_pos m c ((p0 : Fin cfg0.N).val + 1) (Nat.succ_ne_zero _)]
  rw [leaves0, leaves1, leaves2, leaves3, leaves4, leaves5, leaves6, leaves7, leaves8_ph0 m c p0 (by decide), leaves9_ph0 m c p0 (by decide)]
  unfold Yv S1v
  iintro ⟨⟨⟨HS0, ⟨%g, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runA c (grid0.coords p0) _ _ _ _ _ _ _ _ _ _ _ _ _ _ _ _ _ _ _ _ _ _ _ _ ((hcondA p0).mpr rfl) ((hcond2 p0).mpr (by decide)) (fun h => absurd ((hcond3 p0).mp h) (by decide))
    (iblk m c 0 p0) (iblk m c 1 p0) (iblk m c 2 p0) (iblk m c 3 p0) (iblk m c 4 p0) (iblk m c 5 p0) (iblk m c 6 p0) (iblk m c 7 p0) ((dats m 0 c).before 8 p0 d8) g Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]; · iexact HS0
      iexists _; isplitr; swap; · iexact HS1
      ipureintro
      exact s2P_step m c p0 (by decide) g (s2P_zero m c _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  iexact H9

set_option maxHeartbeats 4000000 in
/-- A later point of phase 0. -/
theorem sound_B (c : Dev nD) (t : Fin cfg0.N) (h0 : t.val ≠ 0) (h1 : t.val < 25) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [Phi_castSucc, Phi_succ, Phi_pos m c t.val h0, Phi_pos m c (t.val + 1) (Nat.succ_ne_zero _)]
  rw [leaves0, leaves1, leaves2, leaves3, leaves4, leaves5, leaves6, leaves7, leaves8_ph0 m c t h1, leaves9_ph0 m c t h1]
  unfold Yv
  iintro ⟨⟨⟨HS0, ⟨%g, %hg, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (runB c (grid0.coords t) _ _ _ _ _ _ _ _ _ _ _ _ _ _ _ _ _ _ _ _ _ _ _ _ (fun h => h0 ((hcondA t).mp h)) ((hcond2 t).mpr h1) (fun h => absurd ((hcond3 t).mp h) (by omega))
    (iblk m c 0 t) (iblk m c 1 t) (iblk m c 2 t) (iblk m c 3 t) (iblk m c 4 t) (iblk m c 5 t) (iblk m c 6 t) (iblk m c 7 t) ((dats m 0 c).before 8 t d8) (S1v m c) g Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]; · iexact HS0
      iexists _; isplitr; swap; · iexact HS1
      ipureintro
      exact s2P_step m c t h1 g hg
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists d8; iexact H8
  iexact H9

set_option maxHeartbeats 4000000 in
/-- A point of phase 1: the y window's post stated as Q, which is either case of it. -/
theorem sound_C (c : Dev nD) (t : Fin cfg0.N) (h2 : 25 ≤ t.val) :
    bodyPre m c t ⊢ wp frame (wpE (defs₀ (F := F)) Variants.none c none) Set.univ (bodyAt0 t) (fun _ => bodyPost m c t) := by
  have hN : t.val < 50 := lt_of_lt_of_eq t.isLt N50
  have h0 : t.val ≠ 0 := by omega
  unfold bodyPre bodyPost bodyAt0
  simp only [before0, before1, before2, before3, before4, before5, before6, before7]
  rw [show (dats m 0 c).owesAt () t.succ = (dats m 0 c).owesAt () t.castSucc from rfl]
  rw [Phi_castSucc, Phi_succ, Phi_pos m c t.val h0, Phi_pos m c (t.val + 1) (Nat.succ_ne_zero _)]
  rw [leaves0, leaves1, leaves2, leaves3, leaves4, leaves5, leaves6, leaves7, leaves8_ph1 m c t h2]
  have hy : (iprop(∃ d, owns (c : Thread nD τ) (st0_9 t) fullShare ((dats m 0 c).before 9 t d)) : sProp 𝕄) ⊢ (dats m 0 c).leavesExact 9 t := by
    by_cases h49 : t.val = 49
    · rw [leaves9_last m c t h49]
      iintro ⟨%d, H⟩
      rw [before9_ph1 m c t.val t rfl h2 d]
      iexact H
    · rw [leaves9_ph1 m c t h2 h49]
  unfold Lv
  iintro ⟨⟨⟨HS0, ⟨%g, %hg, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hR : scM1.view.read (Elt F) g = S2all m c := s2P_full m c t.val h2 _ hg
  iapply (runC c (grid0.coords t) _ _ _ _ _ _ _ _ _ _ _ _ _ _ _ _ _ _ _ _ _ _ _ _ (fun h => h0 ((hcondA t).mp h)) (fun h => absurd ((hcond2 t).mp h) (by omega)) ((hcond3 t).mpr h2)
    (iblk m c 0 t) (iblk m c 1 t) (iblk m c 2 t) (iblk m c 3 t) (iblk m c 4 t) (iblk m c 5 t) (iblk m c 6 t) (iblk m c 7 t) ((dats m 0 c).before 9 t d9) (S1v m c) (S2all m c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [HS0]; · iexact HS0
  isplitl [HS1]
  · unfold owns; iexists g; isplitr; · ipureintro; exact hR
    iexact HS1
  iintro ⟨H0, H1, H2, H3, H4, H5, H6, H7, H8, H9, HS0, HS1⟩
  isplitl [HS0 HS1 Hg]
  · isplitl [HS0 HS1]
    · isplitl [HS0]; · iexact HS0
      unfold owns
      icases HS1 with ⟨%g', %hg', HS1⟩
      iexists g'; isplitr; · ipureintro; rw [hg']; exact s2P_all m c _
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iapply hy
  iexists d9; iexact H9

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact sound_A m c t h0
  · by_cases h1 : t.val < 25
    · exact sound_B m c t h0 h1
    · exact sound_C m c t (by omega)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Phi m c 0 from rfl, Phi_zero]
  unfold Pipeline.ΦA; rw [scopedRest0_eq]; simp only [owns_whole, Memref.view_whole, View.set_whole]
  iintro ⟨⟨HS0, ⟨%g, HS1⟩⟩, Hg⟩
  isplitl [HS0 HS1]
  · isplitl [HS0]; · iexact HS0
    iexists g; iexact HS1
  iexact Hg

/-- After the last point the invariant gives the scratch buffers back at some contents. -/
theorem hout (c : Dev nD) : (dats m 0 c).Φ (Fin.last cfg0.N) ⊢ Pipeline.ΦA spec0 c := by
  rw [show (dats m 0 c).Φ (Fin.last cfg0.N) = Phi m c cfg0.N from rfl, Phi_pos m c cfg0.N (by rw [N50]; decide)]
  unfold Pipeline.ΦA; rw [scopedRest0_eq]; simp only [owns_whole, Memref.view_whole, View.set_whole]
  iintro ⟨⟨HS0, ⟨%g, -, HS1⟩⟩, Hg⟩
  isplitl [HS0 HS1]
  · isplitl [HS0]; · iexists _; iexact HS0
    iexists g; iexact HS1
  iexact Hg

/-! ## The run and the frame -/

set_option backward.isDefEq.respectTransparency.types false in
/-- Every weakly fair execution of @main terminates, every array of the pipeline at what the write-backs of the proof
    data leave in it and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Hand

end
-- ==== Proof.Blocks.lean ====
/-
  The blocks the pipeline hands the kernel body, read back as entries of the argument arrays.  The feature matrix x and
  the three weight matrices are staged whole (one block, index 0), so their blocks are the arrays.  The adjacency
  matrix is staged in row blocks of 400 rows: at point t the block is rows 400 b … 400 b + 399 with b = t in phase 0
  and b = 49 - t in phase 1.  The three bias vectors reach the kernel reshaped to one row: entry (0, k) of the block is
  entry k of the vector.
-/
import proofs.«160181_g86887188398703_cont_sun_m_546_21_alg».proof.Proof.KI.Data
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Final

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ)

/-- The argument arrays on core c. -/
abbrev a0 (c : Dev nD) : Vec Ideal S10000x128 .f32 := m ((c.tc : Thread nD τ).loc main_arg0)
abbrev a1 (c : Dev nD) : Vec Ideal S10000x10000 .f32 := m ((c.tc : Thread nD τ).loc main_arg1)
abbrev a2 (c : Dev nD) : Vec Ideal S128x128 .f32 := m ((c.tc : Thread nD τ).loc main_arg2)
abbrev a3 (c : Dev nD) : Vec Ideal S128 .f32 := m ((c.tc : Thread nD τ).loc main_arg3)
abbrev a4 (c : Dev nD) : Vec Ideal S128x64 .f32 := m ((c.tc : Thread nD τ).loc main_arg4)
abbrev a5 (c : Dev nD) : Vec Ideal S64 .f32 := m ((c.tc : Thread nD τ).loc main_arg5)
abbrev a6 (c : Dev nD) : Vec Ideal S128x16 .f32 := m ((c.tc : Thread nD τ).loc main_arg6)
abbrev a7 (c : Dev nD) : Vec Ideal S16 .f32 := m ((c.tc : Thread nD τ).loc main_arg7)

/-- Each input window's block at a point, at its literal type. -/
abbrev b0 (c : Dev nD) (t : Fin cfg0.N) : Vec Ideal S10000x128 .f32 := iblk m c 0 t
abbrev b1 (c : Dev nD) (t : Fin cfg0.N) : Vec Ideal S400x10000 .f32 := iblk m c 1 t
abbrev b2 (c : Dev nD) (t : Fin cfg0.N) : Vec Ideal S128x128 .f32 := iblk m c 2 t
abbrev b3 (c : Dev nD) (t : Fin cfg0.N) : Vec Ideal S1x128 .f32 := iblk m c 3 t
abbrev b4 (c : Dev nD) (t : Fin cfg0.N) : Vec Ideal S128x64 .f32 := iblk m c 4 t
abbrev b5 (c : Dev nD) (t : Fin cfg0.N) : Vec Ideal S1x64 .f32 := iblk m c 5 t
abbrev b6 (c : Dev nD) (t : Fin cfg0.N) : Vec Ideal S128x16 .f32 := iblk m c 6 t
abbrev b7 (c : Dev nD) (t : Fin cfg0.N) : Vec Ideal S1x16 .f32 := iblk m c 7 t

/-- Row p of row block b. -/
def row (b : Fin 25) (p : Fin 400) : Fin 10000 := ⟨400 * b.val + p.val, by have := b.isLt; have := p.isLt; omega⟩

/-- The row block of the adjacency matrix a point works on. -/
def adjBlk (t : Fin cfg0.N) : Fin 25 := ⟨if t.val < 25 then t.val else 49 - t.val, by have : t.val < 50 := lt_of_lt_of_eq t.isLt N50; split <;> omega⟩

/-- The windows staged whole, and the reshaped biases', sit on block (0, 0) at every point. -/
theorem wix0 : ∀ t : Fin cfg0.N, win0_0.index t = ![0, 0] :=
  (by decide +kernel : ∀ t : Fin grid0.N, win0_0.index t = ![0, 0])
theorem wix2 : ∀ t : Fin cfg0.N, win0_2.index t = ![0, 0] :=
  (by decide +kernel : ∀ t : Fin grid0.N, win0_2.index t = ![0, 0])
theorem wix3 : ∀ t : Fin cfg0.N, win0_3.index t = ![0, 0] :=
  (by decide +kernel : ∀ t : Fin grid0.N, win0_3.index t = ![0, 0])
theorem wix4 : ∀ t : Fin cfg0.N, win0_4.index t = ![0, 0] :=
  (by decide +kernel : ∀ t : Fin grid0.N, win0_4.index t = ![0, 0])
theorem wix5 : ∀ t : Fin cfg0.N, win0_5.index t = ![0, 0] :=
  (by decide +kernel : ∀ t : Fin grid0.N, win0_5.index t = ![0, 0])
theorem wix6 : ∀ t : Fin cfg0.N, win0_6.index t = ![0, 0] :=
  (by decide +kernel : ∀ t : Fin grid0.N, win0_6.index t = ![0, 0])
theorem wix7 : ∀ t : Fin cfg0.N, win0_7.index t = ![0, 0] :=
  (by decide +kernel : ∀ t : Fin grid0.N, win0_7.index t = ![0, 0])

theorem blk0 (c : Dev nD) (t : Fin cfg0.N) : b0 m c t = a0 m c := by
  have hz : (fun a => (win0_0.index t) a * main_arg0.ty.shape.size a) = fun _ => 0 := by
    rw [wix0 t]; funext a; fin_cases a <;> exact Nat.zero_mul _
  refine Eq.trans ?_ (V_main_arg0 m c)
  exact Memref.read_access_unit_zero (Elt Ideal) main_arg0 hz _ _
theorem blk2 (c : Dev nD) (t : Fin cfg0.N) : b2 m c t = a2 m c := by
  have hz : (fun a => (win0_2.index t) a * main_arg2.ty.shape.size a) = fun _ => 0 := by
    rw [wix2 t]; funext a; fin_cases a <;> exact Nat.zero_mul _
  refine Eq.trans ?_ (V_main_arg2 m c)
  exact Memref.read_access_unit_zero (Elt Ideal) main_arg2 hz _ _
theorem blk4 (c : Dev nD) (t : Fin cfg0.N) : b4 m c t = a4 m c := by
  have hz : (fun a => (win0_4.index t) a * main_arg4.ty.shape.size a) = fun _ => 0 := by
    rw [wix4 t]; funext a; fin_cases a <;> exact Nat.zero_mul _
  refine Eq.trans ?_ (V_main_arg4 m c)
  exact Memref.read_access_unit_zero (Elt Ideal) main_arg4 hz _ _
theorem blk6 (c : Dev nD) (t : Fin cfg0.N) : b6 m c t = a6 m c := by
  have hz : (fun a => (win0_6.index t) a * main_arg6.ty.shape.size a) = fun _ => 0 := by
    rw [wix6 t]; funext a; fin_cases a <;> exact Nat.zero_mul _
  refine Eq.trans ?_ (V_main_arg6 m c)
  exact Memref.read_access_unit_zero (Elt Ideal) main_arg6 hz _ _
/-- Entry (p, l) of the adjacency block at point t is entry (400 b + p, l) of the matrix, b the point's row block. -/
theorem blk1 (c : Dev nD) (t : Fin cfg0.N) (p : Fin 400) (l : Fin 10000) :
    b1 m c t (ix2 p l) = a1 m c (ix2 (row (adjBlk t) p) l) := by
  have h0 : win0_1.index t (0 : Fin 2) = (adjBlk t).val := by rw [idx1 t]; rfl
  have h1 : win0_1.index t (1 : Fin 2) = 0 := by rw [idx1 t]; rfl
  refine Eq.trans ?_ (congrFun (V_main_arg1 m c) _)
  show V m c main_arg1 (((cfg0.win 1).blk t).view.emb (ix2 p l)) = V m c main_arg1 (ix2 (row (adjBlk t) p) l)
  refine congrArg _ (funext fun a => Fin.ext ?_)
  match a with
  | ⟨0, _⟩ =>
    show win0_1.index t (0 : Fin 2) * 400 + 1 * p.val = 400 * (adjBlk t).val + p.val
    rw [h0]; omega
  | ⟨1, _⟩ =>
    show win0_1.index t (1 : Fin 2) * 10000 + 1 * l.val = l.val
    rw [h1]; omega
/-- The reshaped bias vectors. -/
theorem blk3 (c : Dev nD) (t : Fin cfg0.N) (k : Fin 128) : b3 m c t (ix2 (0 : Fin 1) k) = a3 m c (ix1 k) := by
  have hz : (fun a => (win0_3.index t) a * main_v0.ty.shape.size a) = fun _ => 0 := by
    rw [wix3 t]; funext a; fin_cases a <;> exact Nat.zero_mul _
  have hb : b3 m c t = V m c main_v0 := Memref.read_access_unit_zero (Elt Ideal) main_v0 hz _ _
  have e : (V m c main_v0 : Vec Ideal S1x128 .f32) = shapeCast S1x128 (a3 m c) shapeCasts_S128_S1x128 := by
    dsimp only [Gen.V, Gen.hostOps0]; after_results; rfl
  exact (congrFun hb _).trans ((congrFun e _).trans (shapeCast_a_1a_apply _ _ (0 : Fin 1) k))
theorem blk5 (c : Dev nD) (t : Fin cfg0.N) (k : Fin 64) : b5 m c t (ix2 (0 : Fin 1) k) = a5 m c (ix1 k) := by
  have hz : (fun a => (win0_5.index t) a * main_v1.ty.shape.size a) = fun _ => 0 := by
    rw [wix5 t]; funext a; fin_cases a <;> exact Nat.zero_mul _
  have hb : b5 m c t = V m c main_v1 := Memref.read_access_unit_zero (Elt Ideal) main_v1 hz _ _
  have e : (V m c main_v1 : Vec Ideal S1x64 .f32) = shapeCast S1x64 (a5 m c) shapeCasts_S64_S1x64 := by
    dsimp only [Gen.V, Gen.hostOps0]; after_results; rfl
  exact (congrFun hb _).trans ((congrFun e _).trans (shapeCast_a_1a_apply _ _ (0 : Fin 1) k))
theorem blk7 (c : Dev nD) (t : Fin cfg0.N) (k : Fin 16) : b7 m c t (ix2 (0 : Fin 1) k) = a7 m c (ix1 k) := by
  have hz : (fun a => (win0_7.index t) a * main_v2.ty.shape.size a) = fun _ => 0 := by
    rw [wix7 t]; funext a; fin_cases a <;> exact Nat.zero_mul _
  have hb : b7 m c t = V m c main_v2 := Memref.read_access_unit_zero (Elt Ideal) main_v2 hz _ _
  have e : (V m c main_v2 : Vec Ideal S1x16 .f32) = shapeCast S1x16 (a7 m c) shapeCasts_S16_S1x16 := by
    dsimp only [Gen.V, Gen.hostOps0]; after_results; rfl
  exact (congrFun hb _).trans ((congrFun e _).trans (shapeCast_a_1a_apply _ _ (0 : Fin 1) k))

end Cert.KernelIdeal.Final

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.BridgeH.lean ====
/-
  The first layer, entry by entry over the extended reals.  The kernel's x · W1 (a product into a zero accumulator, the
  change of float format the identity) is the reference's product; and for a row block b of the adjacency matrix the
  kernel's hidden rows relu(adj_b · (x · W1) + b1) are rows 400 b … 400 b + 399 of the reference's hidden matrix: both
  are the same sum over the 10000 contracted entries, then the same bias and the same maximum with zero.
-/
import proofs.«160181_g86887188398703_cont_sun_m_546_21_alg».proof.Proof.Gen.KernelIdeal.Skeleton
import proofs.«160181_g86887188398703_cont_sun_m_546_21_alg».proof.Proof.RefRead
import proofs.«160181_g86887188398703_cont_sun_m_546_21_alg».proof.Proof.LibRowDims
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Bridge

open Cert.KernelIdeal Cert.KernelIdeal.Gen
open Idealize.ShloMosaic Idealize.ShloMosaic.ValueIdx

/-- Row p of row block b. -/
def row (b : Fin 25) (p : Fin 400) : Fin 10000 := ⟨400 * b.val + p.val, by have := b.isLt; have := p.isLt; omega⟩

variable (x0 : Vec Ideal S10000x128 .f32) (x1 : Vec Ideal S10000x10000 .f32) (x2 : Vec Ideal S128x128 .f32)
  (x3 : Vec Ideal S128 .f32) (x4 : Vec Ideal S128x64 .f32) (x5 : Vec Ideal S64 .f32) (x6 : Vec Ideal S128x16 .f32) (x7 : Vec Ideal S16 .f32)

/-! ## The kernel's two payloads read at an entry -/

/-- The kernel's x · W1 at (l, k): the sum over the 128 contracted entries (the product goes into a zero accumulator; the
    change of float format and the cast to the same shape change nothing). -/
private theorem pay1_read (a0 : FVec Ideal S10000x128 .f32) (a2 : FVec Ideal S128x128 .f32) (l : Fin 10000) (k : Fin 128) :
    k0_pay1 (F := Ideal) a0 a2 (ix2 l k) = ∑ j : Fin 128, a0 (ix2 l j) * a2 (ix2 j k) := by
  unfold k0_pay1
  refine (congrFun (shapeCast_self _ _) (ix2 l k)).trans ?_
  show FloatOps.matmul (F := Ideal) dot_S10000x128_S128x128_S10000x128_1_0_0_1_n_n none a0 a2
      (constant (F := Ideal) S10000x128 .f32 0x00000000#32) (ix2 l k) = _
  exact RowDims.matmul_plain_zero_apply (M := 10000) (K := 128) (N := 128) none a0 a2 l k

/-- The kernel's hidden rows at (p, k): the sum over the 10000 contracted entries, plus the bias row's entry k, then the
    maximum with zero. -/
private theorem pay2_read (ab : FVec Ideal S400x10000 .f32) (s1 : FVec Ideal S10000x128 .bf16) (a3 : FVec Ideal S1x128 .f32)
    (p : Fin 400) (k : Fin 128) :
    k0_pay2 (F := Ideal) ab s1 a3 (ix2 p k)
      = max ((∑ l : Fin 10000, ab (ix2 p l) * s1 (ix2 l k)) + a3 (ix2 (0 : Fin 1) k)) (Ideal.ofBits .f32 0x00000000#32) := by
  have hm := RowDims.matmul_plain_zero_apply (M := 400) (K := 10000) (N := 128) none ab s1 p k
  have hb : ∀ h, broadcastTo S400x128 a3 h (ix2 p k) = a3 (ix2 (0 : Fin 1) k) := fun h => broadcastTo_1b_ab_apply a3 h p k
  unfold k0_pay2
  show max (FloatOps.matmul (F := Ideal) dot_S400x10000_S10000x128_S400x128_1_0_0_1_n_n none ab s1
        (constant (F := Ideal) S400x128 .f32 0x00000000#32) (ix2 p k)
      + broadcastTo S400x128 (shapeCast S1x128 a3 _) _ (ix2 p k)) (Ideal.ofBits .f32 0x00000000#32) = _
  rw [shapeCast_self, hb]
  exact congrArg (fun t => max (t + a3 (ix2 (0 : Fin 1) k)) (Ideal.ofBits .f32 0x00000000#32)) hm

/-! ## The reference's index functions on coordinates -/

private theorem lidx0 (l : Fin 10000) (k j : Fin 128) : Cert.ReferenceIdeal.ReadP.lidx_main_v0 (ix2 l k) j = ix2 l j :=
  funext fun a => Fin.ext (by match a with | ⟨0, _⟩ => rfl | ⟨1, _⟩ => rfl)

private theorem ridx0 (l : Fin 10000) (k j : Fin 128) : Cert.ReferenceIdeal.ReadP.ridx_main_v0 (ix2 l k) j = ix2 j k :=
  funext fun a => Fin.ext (by match a with | ⟨0, _⟩ => rfl | ⟨1, _⟩ => rfl)

private theorem lidx1 (r : Fin 10000) (k : Fin 128) (l : Fin 10000) : Cert.ReferenceIdeal.ReadP.lidx_main_v1 (ix2 r k) l = ix2 r l :=
  funext fun a => Fin.ext (by match a with | ⟨0, _⟩ => rfl | ⟨1, _⟩ => rfl)

private theorem ridx1 (r : Fin 10000) (k : Fin 128) (l : Fin 10000) : Cert.ReferenceIdeal.ReadP.ridx_main_v1 (ix2 r k) l = ix2 l k :=
  funext fun a => Fin.ext (by match a with | ⟨0, _⟩ => rfl | ⟨1, _⟩ => rfl)

private theorem idx23 (r : Fin 10000) (k : Fin 128) :
    Cert.ReferenceIdeal.ReadP.idx_main_v2 (Cert.ReferenceIdeal.ReadP.idx_main_v3 (ix2 r k)) = ix1 k :=
  funext fun a => Fin.ext (by match a with | ⟨0, _⟩ => rfl)

/-- x · W1: the kernel's product is the reference's. -/
theorem pay1_eq (l : Fin 10000) (k : Fin 128) :
    k0_pay1 (F := Ideal) x0 x2 (ix2 l k) = Cert.ReferenceIdeal.ReadP.val_main_v0 (F := Ideal) x0 x2 (ix2 l k) := by
  rw [pay1_read, Cert.ReferenceIdeal.ReadP.val_main_v0_apply]
  refine Finset.sum_congr rfl fun j _ => ?_
  rw [lidx0, ridx0]

/-- The kernel's x · W1 is the reference's, as whole arrays. -/
private theorem pay1_eq_fun : k0_pay1 (F := Ideal) x0 x2 = Cert.ReferenceIdeal.ReadP.val_main_v0 (F := Ideal) x0 x2 :=
  funext fun i => by rw [eq_ix2 i]; exact pay1_eq x0 x2 (i 0) (i 1)

/-- The hidden rows of row block b are the reference's hidden rows 400 b + p. -/
theorem pay2_eq (b : Fin 25) (xb : Vec Ideal S400x10000 .f32)
    (hxb : ∀ (p : Fin 400) (l : Fin 10000), xb (ix2 p l) = x1 (ix2 (row b p) l))
    (x3r : Vec Ideal S1x128 .f32) (h3 : ∀ k : Fin 128, x3r (ix2 (0 : Fin 1) k) = x3 (ix1 k))
    (p : Fin 400) (k : Fin 128) :
    k0_pay2 (F := Ideal) xb (k0_pay1 (F := Ideal) x0 x2) x3r (ix2 p k)
      = Cert.ReferenceIdeal.ReadP.val_main_v5 (F := Ideal) x0 x1 x2 x3 (ix2 (row b p) k) := by
  rw [pay2_read, pay1_eq_fun, h3]
  rw [Cert.ReferenceIdeal.ReadP.val_main_v5_apply, Cert.ReferenceIdeal.ReadP.val_main_v4_apply,
    Cert.ReferenceIdeal.ReadP.val_main_v1_apply, Cert.ReferenceIdeal.ReadP.val_main_v3_apply,
    Cert.ReferenceIdeal.ReadP.val_main_v2_apply, Cert.ReferenceIdeal.ReadP.val_main_call0_v0_apply,
    Cert.ReferenceIdeal.ReadP.val_main_call0_cst_apply, idx23]
  have hs : (∑ l : Fin 10000, xb (ix2 p l) * Cert.ReferenceIdeal.ReadP.val_main_v0 (F := Ideal) x0 x2 (ix2 l k))
      = ∑ l : Fin 10000, x1 (Cert.ReferenceIdeal.ReadP.lidx_main_v1 (ix2 (row b p) k) l)
          * Cert.ReferenceIdeal.ReadP.val_main_v0 (F := Ideal) x0 x2 (Cert.ReferenceIdeal.ReadP.ridx_main_v1 (ix2 (row b p) k) l) :=
    Finset.sum_congr rfl fun l _ => by rw [hxb, lidx1, ridx1]
  rw [hs]
  rfl

end Cert.Bridge

end
-- ==== Proof.BridgeYS.lean ====
/-
  The two products of the hidden rows, entry by entry over the extended reals: for a row block b the kernel's encoder
  rows h_b · We + be are rows 400 b … 400 b + 399 of the reference's y, and its rows h_b · W2 are the same rows of the
  reference's second product — the hidden rows being the reference's (the first-layer lemma), each is the same sum over
  the 128 hidden entries.
-/
import proofs.«160181_g86887188398703_cont_sun_m_546_21_alg».proof.Proof.BridgeH

noncomputable section

open scoped BigOperators

namespace Cert.Bridge

open Cert.KernelIdeal Cert.KernelIdeal.Gen
open Idealize.ShloMosaic Idealize.ShloMosaic.ValueIdx

variable (x0 : Vec Ideal S10000x128 .f32) (x1 : Vec Ideal S10000x10000 .f32) (x2 : Vec Ideal S128x128 .f32)
  (x3 : Vec Ideal S128 .f32) (x4 : Vec Ideal S128x64 .f32) (x5 : Vec Ideal S64 .f32) (x6 : Vec Ideal S128x16 .f32) (x7 : Vec Ideal S16 .f32)

/-! ## The kernel's two products at an entry -/

/-- The product h · We of a 400 × 128 block into the zero accumulator, at the entry (p, j): the sum over the 128
    hidden entries. -/
private theorem matmul16_apply (h : FVec Ideal S400x128 .f32) (w : FVec Ideal S128x16 .f32) (p : Fin 400) (j : Fin 16) :
    matmul dot_S400x128_S128x16_S400x16_1_0_0_1_n_n none h w (constant (F := Ideal) S400x16 .f32 0x00000000#32) (ix2 p j)
      = ∑ k : Fin 128, h (ix2 p k) * w (ix2 k j) :=
  RowDims.matmul_plain_zero_apply (M := 400) (K := 128) (N := 16) none h w p j

/-- The product h · W2 of a 400 × 128 block into the zero accumulator, at the entry (p, j): the sum over the 128
    hidden entries. -/
private theorem matmul64_apply (h : FVec Ideal S400x128 .f32) (w : FVec Ideal S128x64 .f32) (p : Fin 400) (j : Fin 64) :
    matmul dot_S400x128_S128x64_S400x64_1_0_0_1_n_n none h w (constant (F := Ideal) S400x64 .f32 0x00000000#32) (ix2 p j)
      = ∑ k : Fin 128, h (ix2 p k) * w (ix2 k j) :=
  RowDims.matmul_plain_zero_apply (M := 400) (K := 128) (N := 64) none h w p j

/-- The kernel's encoder rows at (p, j): the sum over the hidden entries of the hidden row p times column j of We,
    plus entry j of the bias row. -/
private theorem pay3_kernel (xb : Vec Ideal S400x10000 .f32) (y : Vec Ideal S10000x128 .bf16) (x3r : Vec Ideal S1x128 .f32)
    (x7r : Vec Ideal S1x16 .f32) (p : Fin 400) (j : Fin 16) :
    k0_pay3 (F := Ideal) xb y x3r x6 x7r (ix2 p j)
      = (∑ k : Fin 128, k0_pay2 (F := Ideal) xb y x3r (ix2 p k) * x6 (ix2 k j)) + x7r (ix2 (0 : Fin 1) j) := by
  show matmul dot_S400x128_S128x16_S400x16_1_0_0_1_n_n none (k0_pay2 (F := Ideal) xb y x3r) x6
        (constant (F := Ideal) S400x16 .f32 0x00000000#32) (ix2 p j)
      + broadcastTo S400x16 (shapeCast S1x16 x7r shapeCasts_S1x16_S1x16) broadcasts_S1x16_S400x16 (ix2 p j) = _
  rw [matmul16_apply, shapeCast_self, broadcastTo_1b_ab_apply]

/-- The kernel's rows h_b · W2 at (p, j): the change of float format and the cast to the same shape are the identity,
    so it is the sum over the hidden entries of the hidden row p times column j of W2. -/
private theorem pay4_kernel (xb : Vec Ideal S400x10000 .f32) (y : Vec Ideal S10000x128 .bf16) (x3r : Vec Ideal S1x128 .f32)
    (p : Fin 400) (j : Fin 64) :
    k0_pay4 (F := Ideal) xb y x3r x4 (ix2 p j)
      = ∑ k : Fin 128, k0_pay2 (F := Ideal) xb y x3r (ix2 p k) * x4 (ix2 k j) := by
  show shapeCast S400x64 (truncf .bf16 (matmul dot_S400x128_S128x64_S400x64_1_0_0_1_n_n none (k0_pay2 (F := Ideal) xb y x3r) x4
        (constant (F := Ideal) S400x64 .f32 0x00000000#32)) bitsLt_bf16_f32) shapeCasts_S400x64_S400x64 (ix2 p j) = _
  rw [shapeCast_self, truncf_apply, matmul64_apply]

/-! ## The reference's two products at an entry -/

/-- The reference's y at (r, j): the sum over the hidden entries of the hidden row r times column j of We, plus
    entry j of the bias. -/
private theorem v14_read (r : Fin 10000) (j : Fin 16) :
    Cert.ReferenceIdeal.ReadP.val_main_v14 (F := Ideal) x0 x1 x2 x3 x6 x7 (ix2 r j)
      = (∑ k : Fin 128, Cert.ReferenceIdeal.ReadP.val_main_v5 (F := Ideal) x0 x1 x2 x3 (ix2 r k) * x6 (ix2 k j)) + x7 (ix1 j) := by
  rw [Cert.ReferenceIdeal.ReadP.val_main_v14_apply, Cert.ReferenceIdeal.ReadP.val_main_v11_apply,
    Cert.ReferenceIdeal.ReadP.val_main_v13_apply, Cert.ReferenceIdeal.ReadP.val_main_v12_apply]
  -- the reference's index functions are the pairs (r, k), (k, j) and the single coordinate j
  have el : ∀ k : Fin 128, Cert.ReferenceIdeal.ReadP.lidx_main_v11 (ix2 r j) k = ix2 r k := fun k =>
    funext fun a => Fin.ext (by match a with | ⟨0, _⟩ => rfl | ⟨1, _⟩ => rfl)
  have er : ∀ k : Fin 128, Cert.ReferenceIdeal.ReadP.ridx_main_v11 (ix2 r j) k = ix2 k j := fun k =>
    funext fun a => Fin.ext (by match a with | ⟨0, _⟩ => rfl | ⟨1, _⟩ => rfl)
  have eb : Cert.ReferenceIdeal.ReadP.idx_main_v12 (Cert.ReferenceIdeal.ReadP.idx_main_v13 (ix2 r j)) = ix1 j :=
    funext fun a => Fin.ext (by match a with | ⟨0, _⟩ => rfl)
  rw [eb]
  simp only [el, er]
  rfl

/-- The reference's second product at (r, j): the sum over the hidden entries of the hidden row r times column j of
    W2. -/
private theorem v6_read (r : Fin 10000) (j : Fin 64) :
    Cert.ReferenceIdeal.ReadP.val_main_v6 (F := Ideal) x0 x1 x2 x3 x4 (ix2 r j)
      = ∑ k : Fin 128, Cert.ReferenceIdeal.ReadP.val_main_v5 (F := Ideal) x0 x1 x2 x3 (ix2 r k) * x4 (ix2 k j) := by
  rw [Cert.ReferenceIdeal.ReadP.val_main_v6_apply]
  have el : ∀ k : Fin 128, Cert.ReferenceIdeal.ReadP.lidx_main_v6 (ix2 r j) k = ix2 r k := fun k =>
    funext fun a => Fin.ext (by match a with | ⟨0, _⟩ => rfl | ⟨1, _⟩ => rfl)
  have er : ∀ k : Fin 128, Cert.ReferenceIdeal.ReadP.ridx_main_v6 (ix2 r j) k = ix2 k j := fun k =>
    funext fun a => Fin.ext (by match a with | ⟨0, _⟩ => rfl | ⟨1, _⟩ => rfl)
  simp only [el, er]

/-! ## The two sides agree -/

/-- The encoder rows of row block b are the reference's rows 400 b + p of y. -/
theorem pay3_eq (b : Fin 25) (xb : Vec Ideal S400x10000 .f32)
    (hxb : ∀ (p : Fin 400) (l : Fin 10000), xb (ix2 p l) = x1 (ix2 (row b p) l))
    (x3r : Vec Ideal S1x128 .f32) (h3 : ∀ k : Fin 128, x3r (ix2 (0 : Fin 1) k) = x3 (ix1 k))
    (x7r : Vec Ideal S1x16 .f32) (h7 : ∀ j : Fin 16, x7r (ix2 (0 : Fin 1) j) = x7 (ix1 j))
    (p : Fin 400) (j : Fin 16) :
    k0_pay3 (F := Ideal) xb (k0_pay1 (F := Ideal) x0 x2) x3r x6 x7r (ix2 p j)
      = Cert.ReferenceIdeal.ReadP.val_main_v14 (F := Ideal) x0 x1 x2 x3 x6 x7 (ix2 (row b p) j) := by
  -- both sides are the sum over the 128 hidden entries plus the bias entry; the hidden rows agree entry by entry
  rw [pay3_kernel x6 xb (k0_pay1 (F := Ideal) x0 x2) x3r x7r p j, v14_read x0 x1 x2 x3 x6 x7 (row b p) j, h7 j]
  congr 1
  exact Finset.sum_congr rfl fun k _ => by rw [pay2_eq x0 x1 x2 x3 b xb hxb x3r h3 p k]

/-- The rows h_b · W2 of row block b are the reference's rows 400 b + p of the second product. -/
theorem pay4_eq (b : Fin 25) (xb : Vec Ideal S400x10000 .f32)
    (hxb : ∀ (p : Fin 400) (l : Fin 10000), xb (ix2 p l) = x1 (ix2 (row b p) l))
    (x3r : Vec Ideal S1x128 .f32) (h3 : ∀ k : Fin 128, x3r (ix2 (0 : Fin 1) k) = x3 (ix1 k))
    (p : Fin 400) (j : Fin 64) :
    k0_pay4 (F := Ideal) xb (k0_pay1 (F := Ideal) x0 x2) x3r x4 (ix2 p j)
      = Cert.ReferenceIdeal.ReadP.val_main_v6 (F := Ideal) x0 x1 x2 x3 x4 (ix2 (row b p) j) := by
  -- both sides are the sum over the 128 hidden entries; the hidden rows agree entry by entry
  rw [pay4_kernel x4 xb (k0_pay1 (F := Ideal) x0 x2) x3r p j, v6_read x0 x1 x2 x3 x4 (row b p) j]
  exact Finset.sum_congr rfl fun k _ => by rw [pay2_eq x0 x1 x2 x3 b xb hxb x3r h3 p k]

end Cert.Bridge

end
-- ==== Proof.BridgeL.lean ====
/-
  The second layer and its log-softmax, entry by entry over the extended reals.  For a row block b of the adjacency
  matrix, with the second product s2 the reference's, the kernel's logits adj_b · s2 + b2 are rows 400 b … 400 b + 399 of
  the reference's; each row's maximum over the 64 classes is the reference's (whose further maximum with -∞ changes
  nothing), so the shifted rows agree, and so do their exponentials' sums, the logarithm, and the difference.
-/
import proofs.«160181_g86887188398703_cont_sun_m_546_21_alg».proof.Proof.BridgeH

noncomputable section

open scoped BigOperators

namespace Cert.Bridge

open Cert.KernelIdeal Cert.KernelIdeal.Gen
open Idealize.ShloMosaic Idealize.ShloMosaic.ValueIdx

/-! ### The column forms of the layout operations -/

/-- A vector of `a` entries cast to one column reads, at (p, u), entry `p`, whatever the unit coordinate `u`. -/
private theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column broadcast over `b` columns reads, at (p, c), the column's entry in row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row index with column `k` put back on the reduced axis is (p, k). -/
private theorem lift_col {m n : Nat} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  match c with
  | ⟨0, _⟩ => rfl
  | ⟨1, _⟩ => rfl

/-! ### A row's log-softmax on the extended reals -/

/-- The maximum of a row's 64 entries, folded from the value of the word that denotes −∞. -/
private def rowMax (f : Fin 64 → EReal) : EReal :=
  (Finset.univ : Finset (Fin 64)).fold max (Ideal.ofBits .f32 0xFF800000#32) f

/-- The fold's starting value is below the fold, so a further maximum with it changes nothing. -/
private theorem max_init_rowMax (f : Fin 64 → EReal) : max (Ideal.ofBits .f32 0xFF800000#32) (rowMax f) = rowMax f :=
  max_eq_right ((Finset.le_fold_max _).mpr (Or.inl le_rfl))

/-! ### The kernel's side -/

/-- The kernel's row maximum at row `p`. -/
private theorem ker_rowMax (z : FVec Ideal S400x64 .f32) (h : S400x64.Reduces [1] S400) (hφ : FKind.Formats .f32)
    (hacc : (0xFF800000#32 : BitVec 32) = FKind.maximumf.neutral .f32 hφ) (p : Fin 400) :
    multiReduction (F := Ideal) .maximumf [1] S400 z 0xFF800000#32 h hφ hacc (ix1 p) = rowMax fun k => z (ix2 p k) := by
  refine (Ideal.multiReduction_maximumf_single z 0xFF800000#32 h hφ hacc (ix1 p)).trans ?_
  exact congrArg (fun f => Finset.fold max (Ideal.ofBits .f32 0xFF800000#32) f (Finset.univ : Finset (Fin 64)))
    (funext fun k => congrArg z (lift_col h p k))

/-- The kernel's row sum at row `p`. -/
private theorem ker_rowSum (z : FVec Ideal S400x64 .f32) (h : S400x64.Reduces [1] S400) (hφ : FKind.Formats .f32)
    (hacc : (0x00000000#32 : BitVec 32) = FKind.add.neutral .f32 hφ) (p : Fin 400) :
    multiReduction (F := Ideal) .add [1] S400 z 0x00000000#32 h hφ hacc (ix1 p) = ∑ k : Fin 64, z (ix2 p k) := by
  refine (Ideal.multiReduction_add_single z 0x00000000#32 h hφ hacc (ix1 p)).trans ?_
  exact Finset.sum_congr rfl fun k _ => congrArg z (lift_col h p k)

/-- The rows shifted by their maxima. -/
private def kShift (z : FVec Ideal S400x64 .f32) : FVec Ideal S400x64 .f32 :=
  subf z (broadcastTo S400x64 (shapeCast S400x1
    (multiReduction .maximumf [1] S400 z 0xFF800000#32 reduces_S400x64_S400 (.inl rfl) rfl) shapeCasts_S400_S400x1)
    broadcasts_S400x1_S400x64)

/-- The shifted rows less the logarithm of the sum of their exponentials. -/
private def kOut (zs : FVec Ideal S400x64 .f32) : FVec Ideal S400x64 .f32 :=
  subf zs (broadcastTo S400x64 (log (shapeCast S400x1
    (multiReduction .add [1] S400 (exp zs) 0x00000000#32 reduces_S400x64_S400 (.inl rfl) rfl) shapeCasts_S400_S400x1))
    broadcasts_S400x1_S400x64)

/-- The kernel's logits: the row block times the second product, plus the bias row. -/
private def kLogits (xb : FVec Ideal S400x10000 .f32) (s2 : FVec Ideal S10000x64 .bf16) (x5r : FVec Ideal S1x64 .f32) :
    FVec Ideal S400x64 .f32 :=
  addf (matmul dot_S400x10000_S10000x64_S400x64_1_0_0_1_n_n none xb s2 (constant S400x64 .f32 0x00000000#32))
    (broadcastTo S400x64 (shapeCast S1x64 x5r shapeCasts_S1x64_S1x64) broadcasts_S1x64_S400x64)

/-- The payload is these three steps composed. -/
private theorem pay5_steps (xb : FVec Ideal S400x10000 .f32) (s2 : FVec Ideal S10000x64 .bf16) (x5r : FVec Ideal S1x64 .f32) :
    k0_pay5 (F := Ideal) xb s2 x5r = kOut (kShift (kLogits xb s2 x5r)) := rfl

/-- The shifted rows at (p, j). -/
private theorem kShift_apply (z : FVec Ideal S400x64 .f32) (p : Fin 400) (j : Fin 64) :
    kShift z (ix2 p j) = z (ix2 p j) - rowMax fun k => z (ix2 p k) := by
  unfold kShift
  refine congrArg (z (ix2 p j) - ·) ?_
  refine (broadcastTo_a1_ab_apply _ _ p j).trans ?_
  refine (shapeCast_a_a1_apply _ _ p (0 : Fin 1)).trans ?_
  exact ker_rowMax z _ _ _ p

/-- The result at (p, j). -/
private theorem kOut_apply (zs : FVec Ideal S400x64 .f32) (p : Fin 400) (j : Fin 64) :
    kOut zs (ix2 p j) = zs (ix2 p j) - Ideal.log (∑ k : Fin 64, Ideal.exp (zs (ix2 p k))) := by
  unfold kOut
  refine congrArg (zs (ix2 p j) - ·) ?_
  refine (broadcastTo_a1_ab_apply _ _ p j).trans ?_
  refine congrArg Ideal.log ?_
  refine (shapeCast_a_a1_apply _ _ p (0 : Fin 1)).trans ?_
  exact ker_rowSum (exp zs) _ _ _ p

/-- The kernel's logits at (p, j). -/
private theorem kLogits_apply (xb : FVec Ideal S400x10000 .f32) (s2 : FVec Ideal S10000x64 .bf16) (x5r : FVec Ideal S1x64 .f32)
    (p : Fin 400) (j : Fin 64) :
    kLogits xb s2 x5r (ix2 p j) = (∑ l : Fin 10000, xb (ix2 p l) * s2 (ix2 l j)) + x5r (ix2 (0 : Fin 1) j) := by
  unfold kLogits
  rw [addf_apply]
  refine congrArg₂ (· + ·) ?_ ?_
  · exact RowDims.matmul_plain_zero_apply none xb s2 p j
  · refine (broadcastTo_1b_ab_apply _ _ p j).trans ?_
    rw [shapeCast_self]

/-! ### The reference's side -/

section Reference

variable (x0 : Vec Ideal S10000x128 .f32) (x1 : Vec Ideal S10000x10000 .f32) (x2 : Vec Ideal S128x128 .f32)
  (x3 : Vec Ideal S128 .f32) (x4 : Vec Ideal S128x64 .f32) (x5 : Vec Ideal S64 .f32)

/-- The reference's logits at (r, j): row `r` of the adjacency matrix against column `j` of the second product, plus the bias. -/
private theorem ref_logits (r : Fin 10000) (j : Fin 64) :
    Cert.ReferenceIdeal.ReadP.val_main_v10 (F := Ideal) x0 x1 x2 x3 x4 x5 (ix2 r j)
      = (∑ l : Fin 10000, x1 (ix2 r l) * Cert.ReferenceIdeal.ReadP.val_main_v6 (F := Ideal) x0 x1 x2 x3 x4 (ix2 l j))
        + x5 (ix1 j) := by
  have e5 : Cert.ReferenceIdeal.ReadP.idx_main_v8 (Cert.ReferenceIdeal.ReadP.idx_main_v9 (ix2 r j)) = ix1 j :=
    funext fun a => Fin.ext (by match a with | ⟨0, _⟩ => rfl)
  have el : ∀ l : Fin 10000, Cert.ReferenceIdeal.ReadP.lidx_main_v7 (ix2 r j) l = ix2 r l := fun l =>
    funext fun a => Fin.ext (by match a with | ⟨0, _⟩ => rfl | ⟨1, _⟩ => rfl)
  have er : ∀ l : Fin 10000, Cert.ReferenceIdeal.ReadP.ridx_main_v7 (ix2 r j) l = ix2 l j := fun l =>
    funext fun a => Fin.ext (by match a with | ⟨0, _⟩ => rfl | ⟨1, _⟩ => rfl)
  rw [Cert.ReferenceIdeal.ReadP.val_main_v10_apply, Cert.ReferenceIdeal.ReadP.val_main_v7_apply,
    Cert.ReferenceIdeal.ReadP.val_main_v9_apply, Cert.ReferenceIdeal.ReadP.val_main_v8_apply, e5]
  refine congrArg (· + x5 (ix1 j)) (Finset.sum_congr rfl fun l _ => ?_)
  rw [el, er]

/-- The reference's row maximum at row `r`: the fold over the row, the further maximum with −∞ changing nothing. -/
private theorem ref_rowMax (r : Fin 10000) :
    Cert.ReferenceIdeal.ReadP.val_main_call1_v2 (F := Ideal) x0 x1 x2 x3 x4 x5 (ix1 r)
      = rowMax fun k => Cert.ReferenceIdeal.ReadP.val_main_v10 (F := Ideal) x0 x1 x2 x3 x4 x5 (ix2 r k) := by
  have hR : Cert.ReferenceIdeal.S10000x64.Reduces [1] Cert.ReferenceIdeal.S10000 := by decide
  have h0 : Cert.ReferenceIdeal.ReadP.val_main_call1_v0 (F := Ideal) x0 x1 x2 x3 x4 x5 (ix1 r)
      = rowMax fun k => Cert.ReferenceIdeal.ReadP.val_main_v10 (F := Ideal) x0 x1 x2 x3 x4 x5 (ix2 r k) := by
    unfold Cert.ReferenceIdeal.ReadP.val_main_call1_v0
    generalize Cert.ReferenceIdeal.ReadP.val_main_v10 (F := Ideal) x0 x1 x2 x3 x4 x5 = y
    refine (Host.reduce_eq_fold_single (α := Ideal .f32) FloatOps.maximumf y _ _ hR _ (ix1 r)).trans ?_
    exact congrArg (fun f => Finset.fold max (Ideal.ofBits .f32 0xFF800000#32) f (Finset.univ : Finset (Fin 64)))
      (funext fun k => congrArg y (lift_col hR r k))
  rw [Cert.ReferenceIdeal.ReadP.val_main_call1_v2_apply, Cert.ReferenceIdeal.ReadP.val_main_call1_v1_apply,
    Cert.ReferenceIdeal.ReadP.val_main_call1_cst_0_apply, h0]
  exact max_init_rowMax _

/-- The reference's shifted logits at (r, j). -/
private theorem ref_shift (r : Fin 10000) (j : Fin 64) :
    Cert.ReferenceIdeal.ReadP.val_main_call1_v5 (F := Ideal) x0 x1 x2 x3 x4 x5 (ix2 r j)
      = Cert.ReferenceIdeal.ReadP.val_main_v10 (F := Ideal) x0 x1 x2 x3 x4 x5 (ix2 r j)
        - rowMax fun k => Cert.ReferenceIdeal.ReadP.val_main_v10 (F := Ideal) x0 x1 x2 x3 x4 x5 (ix2 r k) := by
  have e : Cert.ReferenceIdeal.ReadP.idx_main_call1_v3 (Cert.ReferenceIdeal.ReadP.idx_main_call1_v4 (ix2 r j)) = ix1 r :=
    funext fun a => Fin.ext (by match a with | ⟨0, _⟩ => rfl)
  rw [Cert.ReferenceIdeal.ReadP.val_main_call1_v5_apply, Cert.ReferenceIdeal.ReadP.val_main_call1_v4_apply,
    Cert.ReferenceIdeal.ReadP.val_main_call1_v3_apply, e, ref_rowMax]
  rfl

/-- The reference's sum of a row's exponentials at row `r`. -/
private theorem ref_rowSum (r : Fin 10000) :
    Cert.ReferenceIdeal.ReadP.val_main_call1_v7 (F := Ideal) x0 x1 x2 x3 x4 x5 (ix1 r)
      = ∑ k : Fin 64, Ideal.exp (Cert.ReferenceIdeal.ReadP.val_main_call1_v5 (F := Ideal) x0 x1 x2 x3 x4 x5 (ix2 r k)) := by
  rw [Cert.ReferenceIdeal.ReadP.val_main_call1_v7_apply, Cert.ReferenceIdeal.ReadP.val_main_call1_cst_1_apply]
  show Ideal.ofBits .f32 0x00000000#32 + _ = _
  rw [Ideal.ofBits_zero_f32, zero_add]
  refine Finset.sum_congr rfl fun k _ => ?_
  rw [Cert.ReferenceIdeal.ReadP.val_main_call1_v6_apply]
  exact congrArg (fun i => Ideal.exp (Cert.ReferenceIdeal.ReadP.val_main_call1_v5 (F := Ideal) x0 x1 x2 x3 x4 x5 i))
    (funext fun a => Fin.ext (by match a with | ⟨0, _⟩ => rfl | ⟨1, _⟩ => rfl))

/-- The reference's result at (r, j). -/
private theorem ref_out (r : Fin 10000) (j : Fin 64) :
    Cert.ReferenceIdeal.ReadP.val_main_v15 (F := Ideal) x0 x1 x2 x3 x4 x5 (ix2 r j)
      = Cert.ReferenceIdeal.ReadP.val_main_call1_v5 (F := Ideal) x0 x1 x2 x3 x4 x5 (ix2 r j)
        - Ideal.log (∑ k : Fin 64, Ideal.exp (Cert.ReferenceIdeal.ReadP.val_main_call1_v5 (F := Ideal) x0 x1 x2 x3 x4 x5 (ix2 r k))) := by
  have e : Cert.ReferenceIdeal.ReadP.idx_main_call1_v8 (Cert.ReferenceIdeal.ReadP.idx_main_call1_v10 (ix2 r j)) = ix1 r :=
    funext fun a => Fin.ext (by match a with | ⟨0, _⟩ => rfl)
  rw [Cert.ReferenceIdeal.ReadP.val_main_v15_apply, Cert.ReferenceIdeal.ReadP.val_main_call1_v10_apply,
    Cert.ReferenceIdeal.ReadP.val_main_call1_v9_apply, Cert.ReferenceIdeal.ReadP.val_main_call1_v8_apply, e, ref_rowSum]
  rfl

end Reference

variable (x0 : Vec Ideal S10000x128 .f32) (x1 : Vec Ideal S10000x10000 .f32) (x2 : Vec Ideal S128x128 .f32)
  (x3 : Vec Ideal S128 .f32) (x4 : Vec Ideal S128x64 .f32) (x5 : Vec Ideal S64 .f32) (x6 : Vec Ideal S128x16 .f32) (x7 : Vec Ideal S16 .f32)

/-- The log-softmax rows of row block b are the reference's rows 400 b + p. -/
theorem pay5_eq (b : Fin 25) (xb : Vec Ideal S400x10000 .f32)
    (hxb : ∀ (p : Fin 400) (l : Fin 10000), xb (ix2 p l) = x1 (ix2 (row b p) l))
    (s2 : Vec Ideal S10000x64 .bf16)
    (hs2 : ∀ (r : Fin 10000) (j : Fin 64), s2 (ix2 r j) = Cert.ReferenceIdeal.ReadP.val_main_v6 (F := Ideal) x0 x1 x2 x3 x4 (ix2 r j))
    (x5r : Vec Ideal S1x64 .f32) (h5 : ∀ j : Fin 64, x5r (ix2 (0 : Fin 1) j) = x5 (ix1 j))
    (p : Fin 400) (j : Fin 64) :
    k0_pay5 (F := Ideal) xb s2 x5r (ix2 p j)
      = Cert.ReferenceIdeal.ReadP.val_main_v15 (F := Ideal) x0 x1 x2 x3 x4 x5 (ix2 (row b p) j) := by
  -- the logits of row p are the reference's logits of row 400 b + p: the same sum over the 10000 contracted entries, the same bias
  have hz : ∀ k : Fin 64, kLogits xb s2 x5r (ix2 p k)
      = Cert.ReferenceIdeal.ReadP.val_main_v10 (F := Ideal) x0 x1 x2 x3 x4 x5 (ix2 (row b p) k) := fun k => by
    rw [kLogits_apply, ref_logits, h5]
    refine congrArg (· + x5 (ix1 k)) (Finset.sum_congr rfl fun l _ => ?_)
    rw [hxb, hs2]
  -- so the two rows have one maximum, and the shifted rows agree
  have hs : ∀ k : Fin 64, kShift (kLogits xb s2 x5r) (ix2 p k)
      = Cert.ReferenceIdeal.ReadP.val_main_call1_v5 (F := Ideal) x0 x1 x2 x3 x4 x5 (ix2 (row b p) k) := fun k => by
    rw [kShift_apply, ref_shift, hz k]
    exact congrArg (fun f => Cert.ReferenceIdeal.ReadP.val_main_v10 (F := Ideal) x0 x1 x2 x3 x4 x5 (ix2 (row b p) k) - rowMax f)
      (funext hz)
  -- and with them the sums of their exponentials, the logarithm and the difference
  rw [pay5_steps, kOut_apply, ref_out, hs j]
  exact congrArg (fun f : Fin 64 → EReal =>
      Cert.ReferenceIdeal.ReadP.val_main_call1_v5 (F := Ideal) x0 x1 x2 x3 x4 x5 (ix2 (row b p) j)
        - Ideal.log (∑ k : Fin 64, Ideal.exp (f k)))
    (funext hs)

end Cert.Bridge

end
-- ==== Proof.Rows.lean ====
/-
  The rows each point forms, over the extended reals, as rows of the reference's whole arrays.  With the blocks read
  back as entries of the argument arrays, a point t of phase 0 forms rows 400 t … 400 t + 399 of the reference's y and
  of its second product h · W2 — so the second scratch buffer after phase 0 holds that product whole — and a point t of
  phase 1 forms rows 400 (49 - t) … of the reference's log-softmax.
-/
import proofs.«160181_g86887188398703_cont_sun_m_546_21_alg».proof.Proof.Blocks
import proofs.«160181_g86887188398703_cont_sun_m_546_21_alg».proof.Proof.BridgeYS
import proofs.«160181_g86887188398703_cont_sun_m_546_21_alg».proof.Proof.BridgeL

set_option maxRecDepth 16384

noncomputable section

namespace Cert.KernelIdeal.Final

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ)

/-- The two spellings of a row of a row block agree. -/
theorem row_eq (b : Fin 25) (p : Fin 400) : row b p = Cert.Bridge.row b p := rfl

/-- The reference's log-softmax of the second layer, of the kernel's argument arrays. -/
def Glog (c : Dev nD) : Buf (Elt Ideal) ((c.tc : Thread nD τ).loc main_v3_0) :=
  Cert.ReferenceIdeal.ReadP.val_main_v15 (F := Ideal) (a0 m c) (a1 m c) (a2 m c) (a3 m c) (a4 m c) (a5 m c)
/-- The reference's encoder output, of the kernel's argument arrays. -/
def Genc (c : Dev nD) : Buf (Elt Ideal) ((c.tc : Thread nD τ).loc main_v3_1) :=
  Cert.ReferenceIdeal.ReadP.val_main_v14 (F := Ideal) (a0 m c) (a1 m c) (a2 m c) (a3 m c) (a6 m c) (a7 m c)

/-- x · W1 as the kernel forms it is the reference's. -/
theorem S1v_eq (c : Dev nD) : S1v m c = k0_pay1 (F := Ideal) (a0 m c) (a2 m c) := by
  -- the blocks of x and W1 at the first point are the arrays
  show k0_pay1 (F := Ideal) (b0 m c p0) (b2 m c p0) = _
  rw [blk0 m c p0, blk2 m c p0]

/-- The rows of y a point of phase 0 forms are the reference's rows 400 t + p. -/
theorem Yv_eq (c : Dev nD) (t : Fin cfg0.N) (ht : t.val < 25) (p : Fin 400) (j : Fin 16) :
    Yv m c t (ix2 p j) = Genc m c (ix2 (row ⟨t.val, ht⟩ p) j) := by
  -- in phase 0 the point's row block of the adjacency matrix is block t
  have hb : adjBlk t = ⟨t.val, ht⟩ := Fin.ext (show (if t.val < 25 then t.val else 49 - t.val) = t.val from if_pos ht)
  show k0_pay3 (F := Ideal) (b1 m c t) (k0_pay1 (F := Ideal) (b0 m c p0) (b2 m c p0)) (b3 m c t) (b6 m c t) (b7 m c t) (ix2 p j)
    = Cert.ReferenceIdeal.ReadP.val_main_v14 (F := Ideal) (a0 m c) (a1 m c) (a2 m c) (a3 m c) (a6 m c) (a7 m c)
        (ix2 (Cert.Bridge.row ⟨t.val, ht⟩ p) j)
  -- x, W1 and We are staged whole
  rw [blk0 m c p0, blk2 m c p0, blk6 m c t]
  exact Cert.Bridge.pay3_eq (a0 m c) (a1 m c) (a2 m c) (a3 m c) (a6 m c) (a7 m c) ⟨t.val, ht⟩ (b1 m c t)
    (fun p l => (blk1 m c t p l).trans (by rw [hb, row_eq])) (b3 m c t) (blk3 m c t) (b7 m c t) (blk7 m c t) p j

/-- The second product as the kernel's second scratch buffer holds it after phase 0 is the reference's. -/
theorem S2all_eq (c : Dev nD) (r : Fin 10000) (j : Fin 64) :
    S2all m c (ix2 r j)
      = Cert.ReferenceIdeal.ReadP.val_main_v6 (F := Ideal) (a0 m c) (a1 m c) (a2 m c) (a3 m c) (a4 m c) (ix2 r j) := by
  -- row r is row r % 400 of what point r / 400 of phase 0 formed, and that point's row block is block r / 400
  have hq : r.val / 400 < 25 := by have := r.isLt; omega
  have hqN : r.val / 400 < cfg0.N := by rw [N50]; omega
  have hb : adjBlk ⟨r.val / 400, hqN⟩ = ⟨r.val / 400, hq⟩ :=
    Fin.ext (show (if r.val / 400 < 25 then r.val / 400 else 49 - r.val / 400) = r.val / 400 from if_pos hq)
  have hrow : Cert.Bridge.row ⟨r.val / 400, hq⟩ ⟨r.val % 400, Nat.mod_lt _ (by decide)⟩ = r :=
    Fin.ext (show 400 * (r.val / 400) + r.val % 400 = r.val from Nat.div_add_mod r.val 400)
  show k0_pay4 (F := Ideal) (b1 m c ⟨r.val / 400, hqN⟩) (k0_pay1 (F := Ideal) (b0 m c p0) (b2 m c p0)) (b3 m c ⟨r.val / 400, hqN⟩)
      (b4 m c ⟨r.val / 400, hqN⟩) (ix2 (⟨r.val % 400, Nat.mod_lt _ (by decide)⟩ : Fin 400) j) = _
  -- x, W1 and W2 are staged whole
  rw [blk0 m c p0, blk2 m c p0, blk4 m c ⟨r.val / 400, hqN⟩]
  have h := Cert.Bridge.pay4_eq (a0 m c) (a1 m c) (a2 m c) (a3 m c) (a4 m c) ⟨r.val / 400, hq⟩ (b1 m c ⟨r.val / 400, hqN⟩)
    (fun p l => (blk1 m c ⟨r.val / 400, hqN⟩ p l).trans (by rw [hb, row_eq])) (b3 m c ⟨r.val / 400, hqN⟩) (blk3 m c ⟨r.val / 400, hqN⟩)
    ⟨r.val % 400, Nat.mod_lt _ (by decide)⟩ j
  rw [hrow] at h
  exact h

/-- The log-softmax rows a point of phase 1 forms are the reference's rows 400 (49 - t) + p. -/
theorem Lv_eq (c : Dev nD) (t : Fin cfg0.N) (ht : 25 ≤ t.val) (p : Fin 400) (j : Fin 64) :
    Lv m c t (ix2 p j) = Glog m c (ix2 (row (adjBlk t) p) j) := by
  show k0_pay5 (F := Ideal) (b1 m c t) (S2all m c) (b5 m c t) (ix2 p j)
    = Cert.ReferenceIdeal.ReadP.val_main_v15 (F := Ideal) (a0 m c) (a1 m c) (a2 m c) (a3 m c) (a4 m c) (a5 m c)
        (ix2 (Cert.Bridge.row (adjBlk t) p) j)
  -- the second scratch buffer holds the reference's second product whole
  exact Cert.Bridge.pay5_eq (a0 m c) (a1 m c) (a2 m c) (a3 m c) (a4 m c) (a5 m c) (adjBlk t) (b1 m c t)
    (fun p l => (blk1 m c t p l).trans (by rw [row_eq])) (S2all m c) (S2all_eq m c) (b5 m c t) (blk5 m c t) p j

end Cert.KernelIdeal.Final

end
-- ==== Proof.Final.lean ====
/-
  The two result arrays after the run, over the extended reals.  The y array is written back after points 0 … 23 (row
  blocks 0 … 23, each with the rows that point formed) and after the last point (row block 24, with what point 24 left);
  the logits array after every point of phase 1 (row block 49 - t).  In both cases the written blocks tile the array and
  each is the matching rows of one whole-array function of the arguments — the reference's y and its log-softmax — so the
  arrays end holding those.
-/
import proofs.«160181_g86887188398703_cont_sun_m_546_21_alg».proof.Proof.Rows

set_option maxRecDepth 16384

noncomputable section

namespace Cert.KernelIdeal.Final

open Cert.KernelIdeal Cert.KernelIdeal.Gen Cert.KernelIdeal.Hand
open Idealize.ShloMosaic Idealize.ShloMosaic.TcCoe Idealize.ShloMosaic.ValueIdx
open Idealize.SL.Sem

variable (m : (ℓ : Loc nD τ sig) → Buf (Elt Ideal) ℓ)

/-- An index of the y array is in the block a point writes back iff each coordinate is in the block's range. -/
theorem mem_blk9 (t : Fin cfg0.N) (i : S10000x16.Idx) :
    i ∈ ((cfg0.win 9).blk t).view.set ↔ ∀ a : Fin 2, win0_9.index t a * S400x16.size a ≤ (i a).val ∧ (i a).val < win0_9.index t a * S400x16.size a + S400x16.size a := by
  show i ∈ ((View.whole main_v3_1).slice (win0_9.rect t)).set ↔ _
  rw [View.set_slice_whole, Rect.mem_set_unit]
  exact Iff.rfl

/-- The same for the logits array. -/
theorem mem_blk8 (t : Fin cfg0.N) (i : S10000x64.Idx) :
    i ∈ ((cfg0.win 8).blk t).view.set ↔ ∀ a : Fin 2, win0_8.index t a * S400x64.size a ≤ (i a).val ∧ (i a).val < win0_8.index t a * S400x64.size a + S400x64.size a := by
  show i ∈ ((View.whole main_v3_0).slice (win0_8.rect t)).set ↔ _
  rw [View.set_slice_whole, Rect.mem_set_unit]
  exact Iff.rfl

/-- The y window's row block at a point that writes it back is the row block whose rows the buffer holds. -/
theorem idx9_flush (t : Fin cfg0.N) (ht : t.val < 24 ∨ t.val = 49) :
    win0_9.index t (0 : Fin 2) = (tmin t).val ∧ win0_9.index t (1 : Fin 2) = 0 ∧ (tmin t).val < 25 := by
  have h := idx9 t
  have hm : (tmin t).val = min t.val 24 := rfl
  refine ⟨?_, ?_, by omega⟩
  · rw [h]; show (if t.val < 25 then t.val else 24) = _; split <;> omega
  · rw [h]; rfl

/-- The logits window's row block at a point of phase 1 is the adjacency block of the point. -/
theorem idx8_flush (t : Fin cfg0.N) (ht : 25 ≤ t.val) :
    win0_8.index t (0 : Fin 2) = 49 - t.val ∧ win0_8.index t (1 : Fin 2) = 0 ∧ (adjBlk t).val = 49 - t.val := by
  have h := idx8 t
  refine ⟨?_, ?_, ?_⟩
  · rw [h]; show (if t.val < 25 then 24 else 49 - t.val) = _; split <;> omega
  · rw [h]; rfl
  · show (if t.val < 25 then t.val else 49 - t.val) = _; split <;> omega

section Arrays

variable (c : Dev nD)
  (G9 : Buf (Elt Ideal) ((c.tc : Thread nD τ).loc main_v3_1))
  (h9 : ∀ (t : Fin cfg0.N) (ht : t.val < 25) (p : Fin 400) (j : Fin 16),
    Yv m c t (ix2 p j) = G9 (ix2 (row ⟨t.val, ht⟩ p) j))
  (G8 : Buf (Elt Ideal) ((c.tc : Thread nD τ).loc main_v3_0))
  (h8 : ∀ (t : Fin cfg0.N) (ht : 25 ≤ t.val) (p : Fin 400) (j : Fin 64),
    Lv m c t (ix2 p j) = G8 (ix2 (row (adjBlk t) p) j))

include h9 in
/-- Entry y of the rows of y a point of phase 0 forms is the whole function's entry at row 400 t + y 0. -/
theorem Yv_at (t : Fin cfg0.N) (ht : t.val < 25) (y : S400x16.Idx) (k : S10000x16.Idx)
    (hk0 : (k 0).val = 400 * t.val + (y 0).val) (hk1 : (k 1).val = (y 1).val) : Yv m c t y = G9 k := by
  obtain ⟨p, j, rfl⟩ : ∃ (p : Fin 400) (j : Fin 16), y = ix2 p j := ⟨y 0, y 1, eq_ix2 y⟩
  rw [h9 t ht p j]
  congr 1
  funext a; apply Fin.ext
  match a with
  | ⟨0, _⟩ => show 400 * t.val + p.val = (k 0).val; rw [hk0]
  | ⟨1, _⟩ => show j.val = (k 1).val; rw [hk1]

include h8 in
/-- Entry y of the log-softmax rows a point of phase 1 forms is the whole function's entry at row 400 (49 - t) + y 0. -/
theorem Lv_at (t : Fin cfg0.N) (ht : 25 ≤ t.val) (y : S400x64.Idx) (k : S10000x64.Idx)
    (hk0 : (k 0).val = 400 * (49 - t.val) + (y 0).val) (hk1 : (k 1).val = (y 1).val) : Lv m c t y = G8 k := by
  obtain ⟨p, j, rfl⟩ : ∃ (p : Fin 400) (j : Fin 64), y = ix2 p j := ⟨y 0, y 1, eq_ix2 y⟩
  rw [h8 t ht p j]
  have hb := (idx8_flush t ht).2.2
  congr 1
  funext a; apply Fin.ext
  match a with
  | ⟨0, _⟩ => show 400 * (adjBlk t).val + p.val = (k 0).val; rw [hk0, hb]
  | ⟨1, _⟩ => show j.val = (k 1).val; rw [hk1]

include h9 in
/-- What a point writes back to the y array is its block of the whole function. -/
theorem flushed9_eq (t : Fin cfg0.N) (hf : (cfg0.win 9).flush t = true) :
    (dats (F := Ideal) m 0 c).flushed 9 t = ((cfg0.win 9).blk t).view.read (Elt Ideal) G9 := by
  have ht : t.val < 24 ∨ t.val = 49 := by rw [flush9] at hf; exact of_decide_eq_true hf
  obtain ⟨e0, e1, hlt⟩ := idx9_flush t ht
  show (cfg0.win 9).cut (grid0.coords t) ((dats (F := Ideal) m 0 c).after 9 t) = _
  rw [after9]
  funext y
  show Yv m c (tmin t) y = G9 (((cfg0.win 9).blk t).view.emb y)
  refine Yv_at m c G9 h9 (tmin t) hlt y _ ?_ ?_
  · show win0_9.index t (0 : Fin 2) * 400 + 1 * (y 0).val = 400 * (tmin t).val + (y 0).val
    rw [e0]; omega
  · show win0_9.index t (1 : Fin 2) * 16 + 1 * (y 1).val = (y 1).val
    rw [e1]; omega

include h8 in
/-- What a point writes back to the logits array is its block of the whole function. -/
theorem flushed8_eq (t : Fin cfg0.N) (hf : (cfg0.win 8).flush t = true) :
    (dats (F := Ideal) m 0 c).flushed 8 t = ((cfg0.win 8).blk t).view.read (Elt Ideal) G8 := by
  have ht : 25 ≤ t.val := by rw [flush8] at hf; exact of_decide_eq_true hf
  obtain ⟨e0, e1, -⟩ := idx8_flush t ht
  show (cfg0.win 8).cut (grid0.coords t) ((dats (F := Ideal) m 0 c).after 8 t) = _
  rw [after8]
  funext y
  show Lv m c t y = G8 (((cfg0.win 8).blk t).view.emb y)
  refine Lv_at m c G8 h8 t ht y _ ?_ ?_
  · show win0_8.index t (0 : Fin 2) * 400 + 1 * (y 0).val = 400 * (49 - t.val) + (y 0).val
    rw [e0]; omega
  · show win0_8.index t (1 : Fin 2) * 64 + 1 * (y 1).val = (y 1).val
    rw [e1]; omega

/-- Every row of the y array is in the block some point writes back: row r in that of point r / 400, the last row
    block in that of the last point. -/
theorem cover9 (i : S10000x16.Idx) :
    ∃ t : Fin cfg0.N, (cfg0.win 9).flush t = true ∧ i ∈ ((cfg0.win 9).blk t).view.set := by
  have hN : cfg0.N = 50 := N50
  have hi0 : (i 0).val < 10000 := (i 0).isLt
  have hi1 : (i 1).val < 16 := (i 1).isLt
  obtain ⟨t, htv⟩ : ∃ t : Fin cfg0.N, t.val = if (i 0).val / 400 < 24 then (i 0).val / 400 else 49 :=
    ⟨⟨if (i 0).val / 400 < 24 then (i 0).val / 400 else 49, by rw [hN]; split <;> omega⟩, rfl⟩
  have ht : t.val < 24 ∨ t.val = 49 := by rw [htv]; split <;> omega
  obtain ⟨e0, e1, -⟩ := idx9_flush t ht
  have hm : (tmin t).val = min t.val 24 := rfl
  have q0 : win0_9.index t (0 : Fin 2) = (i 0).val / 400 := by
    rw [e0, hm, htv]; split <;> omega
  refine ⟨t, by rw [flush9]; exact decide_eq_true ht, ?_⟩
  rw [mem_blk9]
  intro a
  match a with
  | ⟨0, _⟩ =>
    show win0_9.index t (0 : Fin 2) * 400 ≤ (i 0).val ∧ (i 0).val < win0_9.index t (0 : Fin 2) * 400 + 400
    rw [q0]; omega
  | ⟨1, _⟩ =>
    show win0_9.index t (1 : Fin 2) * 16 ≤ (i 1).val ∧ (i 1).val < win0_9.index t (1 : Fin 2) * 16 + 16
    rw [e1]; omega

/-- Every row of the logits array is in the block some point of phase 1 writes back: row r in that of point
    49 - r / 400. -/
theorem cover8 (i : S10000x64.Idx) :
    ∃ t : Fin cfg0.N, (cfg0.win 8).flush t = true ∧ i ∈ ((cfg0.win 8).blk t).view.set := by
  have hN : cfg0.N = 50 := N50
  have hi0 : (i 0).val < 10000 := (i 0).isLt
  have hi1 : (i 1).val < 64 := (i 1).isLt
  obtain ⟨t, htv⟩ : ∃ t : Fin cfg0.N, t.val = 49 - (i 0).val / 400 :=
    ⟨⟨49 - (i 0).val / 400, by rw [hN]; omega⟩, rfl⟩
  have ht : 25 ≤ t.val := by omega
  obtain ⟨e0, e1, -⟩ := idx8_flush t ht
  have q0 : win0_8.index t (0 : Fin 2) = (i 0).val / 400 := by rw [e0, htv]; omega
  refine ⟨t, by rw [flush8]; exact decide_eq_true ht, ?_⟩
  rw [mem_blk8]
  intro a
  match a with
  | ⟨0, _⟩ =>
    show win0_8.index t (0 : Fin 2) * 400 ≤ (i 0).val ∧ (i 0).val < win0_8.index t (0 : Fin 2) * 400 + 400
    rw [q0]; omega
  | ⟨1, _⟩ =>
    show win0_8.index t (1 : Fin 2) * 64 ≤ (i 1).val ∧ (i 1).val < win0_8.index t (1 : Fin 2) * 64 + 64
    rw [e1]; omega

include h8 in
/-- The logits array after the run is the whole function. -/
theorem arr8 : (dats (F := Ideal) m 0 c).arrAt 8 cfg0.N = G8 :=
  (dats (F := Ideal) m 0 c).arrAt_eq_of_cover 8 G8 (flushed8_eq m c G8 h8) cover8

include h9 in
/-- The y array after the run is the whole function. -/
theorem arr9 : (dats (F := Ideal) m 0 c).arrAt 9 cfg0.N = G9 :=
  (dats (F := Ideal) m 0 c).arrAt_eq_of_cover 9 G9 (flushed9_eq m c G9 h9) cover9

end Arrays

/-- The logits array after the run. -/
theorem final8 (c : Dev nD) : (dats (F := Ideal) m 0 c).arrAt 8 cfg0.N = Glog m c := by
  exact arr8 m c (Glog m c) (Lv_eq m c)

/-- The y array after the run. -/
theorem final9 (c : Dev nD) : (dats (F := Ideal) m 0 c).arrAt 9 cfg0.N = Genc m c := by
  exact arr9 m c (Genc m c) (Yv_eq m c)

end Cert.KernelIdeal.Final

end
-- ==== Proof.lean ====
/-
  A fused two-layer graph convolution with an encoder head and a log-softmax, against its plain reference, over the
  extended reals.

  The kernel runs one pipeline over 2 × 25 points.  Phase 0 forms, row block by row block of the adjacency matrix, the
  hidden rows h = relu(adj · (x · W1) + b1), their encoder output y = h · We + be (written out block by block) and
  their product h · W2, which it keeps in a scratch buffer; phase 1 forms, row block by row block again (downwards),
  the logits adj · (h · W2) + b2 and writes out their log-softmax.  Every entry of either result depends on one row of
  the adjacency matrix only, and each row's sums run over the full contracted axis in the kernel as in the reference,
  so the two programs compute the same extended real at every index: no sum is re-associated and no law beyond the
  identification of indices is used.  The results are therefore stated once, as the reference's own stage functions
  of the argument arrays (Final.Glog, Final.Genc), and both runs end at them.

  The frames of the two kernel programs are one body proof, generic in the float family: the same text is read at the
  word level for the printed program and at the extended reals for its idealization (the modules under Proof/K are laid
  out from those under Proof/KI by Proof/mk_k.sh).  The reference's frame is its run with the results dropped.  The ideal
  pass rewrote nothing, so nothing is owed for the idealization itself.
-/
import proofs.«160181_g86887188398703_cont_sun_m_546_21_alg».proof.Defs
import proofs.«160181_g86887188398703_cont_sun_m_546_21_alg».proof.Proof.Gen.Kernel
import proofs.«160181_g86887188398703_cont_sun_m_546_21_alg».proof.Proof.Gen.KernelIdeal
import proofs.«160181_g86887188398703_cont_sun_m_546_21_alg».proof.Proof.Gen.ReferenceIdeal
import proofs.«160181_g86887188398703_cont_sun_m_546_21_alg».proof.Proof.Gen.Pre_finite_inputs
import proofs.«160181_g86887188398703_cont_sun_m_546_21_alg».proof.Proof.K.Body
import proofs.«160181_g86887188398703_cont_sun_m_546_21_alg».proof.Proof.KI.Body
import proofs.«160181_g86887188398703_cont_sun_m_546_21_alg».proof.Proof.Final
import proofs.«160181_g86887188398703_cont_sun_m_546_21_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem

section KernelRun

open Cert.KernelIdeal Cert.KernelIdeal.Gen Cert.KernelIdeal.Hand Cert.KernelIdeal.Final

variable (m : (ℓ : Loc nD τ sig) → Buf (Elt Ideal) ℓ) (ρ : Dev nD → PrngReg)

/-- The idealized kernel's run: the logits array ends at the reference's log-softmax of the arguments, the y array at
    the reference's encoder output, the arguments unchanged (read off the frame run: the two result arrays by the
    covers of their written blocks, a staged argument as an input window's array, an unstaged one as the region
    found it). -/
theorem kernel_run : θ_run defs (onTc (τ := τ) (main (F := Ideal))) ⟨m, fun _ => 0, ρ⟩ (fun r => ∀ c : Dev nD,
      r.2.mem ((c.tc : Thread nD τ).loc main_v3_0) = Glog m c
      ∧ r.2.mem ((c.tc : Thread nD τ).loc main_v3_1) = Genc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 8).trans (final8 m c), ((h c).1 9).trans (final9 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c),
      ((h c).1 6).trans (((dats m 0 c).arrAt_in 6 rfl _).trans ((A_eq m c 6).trans (V_main_arg6 m c))),
      ((h c).2 main_arg7 (Pipeline.mem_restRefs_of main_arg7 (by decide) (by decide))).trans (V_main_arg7 m c)⟩)
    (run_main (F := Ideal) m ρ)

end KernelRun

/-- The printed kernel runs and leaves its arguments unchanged: the body proof read at the word level. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized kernel runs and leaves its arguments unchanged: the same body proof read at the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference runs and leaves its arguments unchanged: its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

/-- The ideal pass rewrote no operation. -/
theorem preserves : Cert.preserves_Kernel_KernelIdeal := trivial

/-- From memories agreeing on the arguments both programs end with the reference's log-softmax and encoder output of
    those arguments: the kernel by its run above; the reference by its own run, whose two result terms are those stage
    functions of its own arguments, which are the kernel's. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Final.Glog m c, fun c => Cert.KernelIdeal.Final.Genc m c, kernel_run m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · rw [Cert.ReferenceIdeal.ReadP.val_main_v15_eq, (hagree c).1, (hagree c).2.1, (hagree c).2.2.1, (hagree c).2.2.2.1,
      (hagree c).2.2.2.2.1, (hagree c).2.2.2.2.2.1]
    rfl
  · rw [Cert.ReferenceIdeal.ReadP.val_main_v14_eq, (hagree c).1, (hagree c).2.1, (hagree c).2.2.1, (hagree c).2.2.2.1,
      (hagree c).2.2.2.2.2.2.1, (hagree c).2.2.2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
